-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x200x200 : Shape := ⟨4, ![8, 256, 200, 200]⟩
abbrev S8x256 : Shape := ⟨2, ![8, 256]⟩
abbrev S256x1024 : Shape := ⟨2, ![256, 1024]⟩
abbrev S1024 : Shape := ⟨1, ![1024]⟩
abbrev S1024x40000 : Shape := ⟨2, ![1024, 40000]⟩
abbrev S40000 : Shape := ⟨1, ![40000]⟩
abbrev S_ : Shape := ⟨0, ![]⟩

class Facts : Prop where
  bcast_S_S8x256x200x200 : S_.BroadcastsInDim S8x256x200x200 (![] : Fin 0 → Fin S8x256x200x200.rank)
  reducesTo_S8x256x200x200_S_d0_1_2_3 : S8x256x200x200.ReducesTo [0, 1, 2, 3] S_
  h_S_ : 0 < S_.numel
  bcast_S_S8x256 : S_.BroadcastsInDim S8x256 (![] : Fin 0 → Fin S8x256.rank)
  reducesTo_S8x256_S_d0_1 : S8x256.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x40000 : S_.BroadcastsInDim S1024x40000 (![] : Fin 0 → Fin S1024x40000.rank)
  reducesTo_S1024x40000_S_d0_1 : S1024x40000.ReducesTo [0, 1] S_
  bcast_S_S40000 : S_.BroadcastsInDim S40000 (![] : Fin 0 → Fin S40000.rank)
  reducesTo_S40000_S_d0 : S40000.ReducesTo [0] S_

variable [Facts]

def fn_part1 {F : FTy → Type} [FloatOps F] (main_arg4 : FVec F S1024x40000 .f32) (main_arg5 : FVec F S40000 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x40000 .f32 := Host.absf main_arg4
  let main_cst_6 : FVec F S_ .f32 := constant S_ .f32 0x7F800000#32
  let main_v20 : FVec F S1024x40000 .f32 := broadcastInDim S1024x40000 ![] bcast_S_S1024x40000 main_cst_6
  let main_v21 : IVec S1024x40000 1 := cmpf .olt main_v19 main_v20
  let main_c_7 : IVec S_ 1 := constantI S_ 1 1#1
  let main_v22 : IVec S_ 1 := (fun x v => Host.reduce IntOp.andi x v reducesTo_S1024x40000_S_d0_1 h_S_) main_v21 main_c_7
  let main_v23 : IVec S_ 1 := andi main_v18 main_v22
  let main_v24 : FVec F S40000 .f32 := Host.absf main_arg5
  let main_cst_8 : FVec F S_ .f32 := constant S_ .f32 0x7F800000#32
  let main_v25 : FVec F S40000 .f32 := broadcastInDim S40000 ![] bcast_S_S40000 main_cst_8
  let main_v26 : IVec S40000 1 := cmpf .olt main_v24 main_v25
  let main_c_9 : IVec S_ 1 := constantI S_ 1 1#1
  let main_v27 : IVec S_ 1 := (fun x v => Host.reduce IntOp.andi x v reducesTo_S40000_S_d0 h_S_) main_v26 main_c_9
  let main_v28 : IVec S_ 1 := andi main_v23 main_v27
  main_v28

def fn {F : FTy → Type} [FloatOps F] (main_arg0 : FVec F S8x256x200x200 .f32) (main_arg1 : FVec F S8x256 .f32) (main_arg2 : FVec F S256x1024 .f32) (main_arg3 : FVec F S1024 .f32) (main_arg4 : FVec F S1024x40000 .f32) (main_arg5 : FVec F S40000 .f32) : IVec S_ 1 :=
  let main_v0 : FVec F S8x256x200x200 .f32 := Host.absf main_arg0
  let main_cst : FVec F S_ .f32 := constant S_ .f32 0x7F800000#32
  let main_v1 : FVec F S8x256x200x200 .f32 := broadcastInDim S8x256x200x200 ![] bcast_S_S8x256x200x200 main_cst
  let main_v2 : IVec S8x256x200x200 1 := cmpf .olt main_v0 main_v1
  let main_c : IVec S_ 1 := constantI S_ 1 1#1
  let main_v3 : IVec S_ 1 := (fun x v => Host.reduce IntOp.andi x v reducesTo_S8x256x200x200_S_d0_1_2_3 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S8x256x200x200 : Shape := ⟨4, ![8, 256, 200, 200]⟩
abbrev S8x256 : Shape := ⟨2, ![8, 256]⟩
abbrev S256x1024 : Shape := ⟨2, ![256, 1024]⟩
abbrev S1024 : Shape := ⟨1, ![1024]⟩
abbrev S1024x40000 : Shape := ⟨2, ![1024, 40000]⟩
abbrev S40000 : Shape := ⟨1, ![40000]⟩
abbrev S1x1024 : Shape := ⟨2, ![1, 1024]⟩
abbrev S1x40000 : Shape := ⟨2, ![1, 40000]⟩
abbrev S8x40000 : Shape := ⟨2, ![8, 40000]⟩
abbrev S256x128 : Shape := ⟨2, ![256, 128]⟩
abbrev S1x128 : Shape := ⟨2, ![1, 128]⟩
abbrev S128x40000 : Shape := ⟨2, ![128, 40000]⟩
abbrev S8x128 : Shape := ⟨2, ![8, 128]⟩
abbrev S8x200x200 : Shape := ⟨3, ![8, 200, 200]⟩
abbrev S1x32x200x200 : Shape := ⟨4, ![1, 32, 200, 200]⟩
abbrev S1x200x200 : Shape := ⟨3, ![1, 200, 200]⟩
abbrev S1x1x200x200 : Shape := ⟨4, ![1, 1, 200, 200]⟩

abbrev nBuf : Space → Nat
  | .hbm => 13
  | .vmem => 16
  | .smem => 0
  | _ => 0

abbrev bufTy : (tb : Table) → Fin (tcTables nBuf tb) → BufTy
  | .hbm, ⟨0, _⟩ => ⟨S8x256x200x200, .f32⟩
  | .hbm, ⟨1, _⟩ => ⟨S8x256, .f32⟩
  | .hbm, ⟨2, _⟩ => ⟨S256x1024, .f32⟩
  | .hbm, ⟨3, _⟩ => ⟨S1024, .f32⟩
  | .hbm, ⟨4, _⟩ => ⟨S1024x40000, .f32⟩
  | .hbm, ⟨5, _⟩ => ⟨S40000, .f32⟩
  | .hbm, ⟨6, _⟩ => ⟨S256x1024, .bf16⟩
  | .hbm, ⟨7, _⟩ => ⟨S1024x40000, .bf16⟩
  | .hbm, ⟨8, _⟩ => ⟨S1x1024, .f32⟩
  | .hbm, ⟨9, _⟩ => ⟨S1x40000, .f32⟩
  | .hbm, ⟨10, _⟩ => ⟨S8x40000, .f32⟩
  | .hbm, ⟨11, _⟩ => ⟨S8x200x200, .f32⟩
  | .hbm, ⟨12, _⟩ => ⟨S8x256x200x200, .f32⟩
  | .local _ .vmem, ⟨0, _⟩ => ⟨S8x256, .f32⟩
  | .local _ .vmem, ⟨1, _⟩ => ⟨S256x128, .bf16⟩
  | .local _ .vmem, ⟨2, _⟩ => ⟨S256x128, .bf16⟩
  | .local _ .vmem, ⟨3, _⟩ => ⟨S1x128, .f32⟩
  | .local _ .vmem, ⟨4, _⟩ => ⟨S1x128, .f32⟩
  | .local _ .vmem, ⟨5, _⟩ => ⟨S128x40000, .bf16⟩
  | .local _ .vmem, ⟨6, _⟩ => ⟨S128x40000, .bf16⟩
  | .local _ .vmem, ⟨7, _⟩ => ⟨S1x40000, .f32⟩
  | .local _ .vmem, ⟨8, _⟩ => ⟨S8x40000, .f32⟩
  | .local _ .vmem, ⟨9, _⟩ => ⟨S8x40000, .f32⟩
  | .local _ .vmem, ⟨10, _⟩ => ⟨S1x32x200x200, .f32⟩
  | .local _ .vmem, ⟨11, _⟩ => ⟨S1x32x200x200, .f32⟩
  | .local _ .vmem, ⟨12, _⟩ => ⟨S1x200x200, .f32⟩
  | .local _ .vmem, ⟨13, _⟩ => ⟨S1x200x200, .f32⟩
  | .local _ .vmem, ⟨14, _⟩ => ⟨S1x32x200x200, .f32⟩
  | .local _ .vmem, ⟨15, _⟩ => ⟨S1x32x200x200, .f32⟩
  | _, _ => ⟨S8x256x200x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v26 : BitVec 1 := Scalar.cmpi .eq arg0 c7_i32
  let v27 : BitVec 32 := Scalar.extui v26
  let c0_i32_15 : BitVec 32 := 0#32
  let v28 : BitVec 1 := Scalar.cmpi .ne v27 c0_i32_15
  v28

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x40000 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x40000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x40000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x32x200x200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x200x200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x32x200x200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bitsLt_bf16_f32 : FTy.bits .bf16 < FTy.bits .f32
  shapeCasts_S1024_S1x1024 : S1024.ShapeCasts S1x1024
  shapeCasts_S40000_S1x40000 : S40000.ShapeCasts S1x40000
  inb_S8x40000_S8x40000_0_0 : ∀ a, (![0, 0] : Fin 2 → Nat) a + S8x40000.size a ≤ S8x40000.size a
  h_S8x40000 : 0 < S8x40000.numel
  shapeCasts_S8x40000_S8x40000 : S8x40000.ShapeCasts S8x40000
  inb_S8x256_S8x256_0_0 : ∀ a, (![0, 0] : Fin 2 → Nat) a + S8x256.size a ≤ S8x256.size a
  h_S8x256 : 0 < S8x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8x128 : S1x128.Broadcasts S8x128
  inb_S128x40000_S128x40000_0_0 : ∀ a, (![0, 0] : Fin 2 → Nat) a + S128x40000.size a ≤ S128x40000.size a
  h_S128x40000 : 0 < S128x40000.numel
  shapeCasts_S128x40000_S128x40000 : S128x40000.ShapeCasts S128x40000
  inb_S1x40000_S1x40000_0_0 : ∀ a, (![0, 0] : Fin 2 → Nat) a + S1x40000.size a ≤ S1x40000.size a
  h_S1x40000 : 0 < S1x40000.numel
  shapeCasts_S1x40000_S1x40000 : S1x40000.ShapeCasts S1x40000
  broadcasts_S1x40000_S8x40000 : S1x40000.Broadcasts S8x40000
  shapeCasts_S8x40000_S8x200x200 : S8x40000.ShapeCasts S8x200x200
  inb_S1x200x200_S1x200x200_0_0_0 : ∀ a, (![0, 0, 0] : Fin 3 → Nat) a + S1x200x200.size a ≤ S1x200x200.size a
  h_S1x200x200 : 0 < S1x200x200.numel
  shapeCasts_S1x200x200_S1x200x200 : S1x200x200.ShapeCasts S1x200x200
  shapeCasts_S1x200x200_S1x1x200x200 : S1x200x200.ShapeCasts S1x1x200x200
  shapeCasts_S1x1x200x200_S1x1x200x200 : S1x1x200x200.ShapeCasts S1x1x200x200
  broadcasts_S1x1x200x200_S1x32x200x200 : S1x1x200x200.Broadcasts S1x32x200x200
  inb_S1x32x200x200_S1x32x200x200_0_0_0_0 : ∀ a, (![0, 0, 0, 0] : Fin 4 → Nat) a + S1x32x200x200.size a ≤ S1x32x200x200.size a
  h_S1x32x200x200 : 0 < S1x32x200x200.numel
  dot_S8x256_S256x128_S8x128_1_0_0_1_n_n_wf : DotDims.WF S8x256 S256x128 S8x128 [1] [0] [0] [1] [] []
  dot_S8x128_S128x40000_S8x40000_1_0_0_1_n_n_wf : DotDims.WF S8x128 S128x40000 S8x40000 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x256.size a ≤ S8x256.size a
  hwx0_0 : ∀ i : grid0.Coords, EltTy.bits .f32 = 32 ∨ (Rect.block (s := S8x256) S8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x1024.size a
  hwx0_1 : ∀ i : grid0.Coords, EltTy.bits .bf16 = 32 ∨ (Rect.block (s := S256x1024) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x1024.size a
  hwx0_2 : ∀ i : grid0.Coords, EltTy.bits .f32 = 32 ∨ (Rect.block (s := S1x1024) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x40000.size a ≤ S1024x40000.size a
  hwx0_3 : ∀ i : grid0.Coords, EltTy.bits .bf16 = 32 ∨ (Rect.block (s := S1024x40000) S128x40000.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x40000.size a ≤ S1x40000.size a
  hwx0_4 : ∀ i : grid0.Coords, EltTy.bits .f32 = 32 ∨ (Rect.block (s := S1x40000) S1x40000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x40000.size a ≤ S8x40000.size a
  hwx0_5 : ∀ i : grid0.Coords, EltTy.bits .f32 = 32 ∨ (Rect.block (s := S8x40000) S8x40000.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x200x200.size a ≤ S8x256x200x200.size a
  hwx1_0 : ∀ i : grid1.Coords, EltTy.bits .f32 = 32 ∨ (Rect.block (s := S8x256x200x200) S1x32x200x200.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x200x200.size a ≤ S8x200x200.size a
  hwx1_1 : ∀ i : grid1.Coords, EltTy.bits .f32 = 32 ∨ (Rect.block (s := S8x200x200) S1x200x200.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x200x200.size a ≤ S8x256x200x200.size a
  hwx1_2 : ∀ i : grid1.Coords, EltTy.bits .f32 = 32 ∨ (Rect.block (s := S8x256x200x200) S1x32x200x200.size (cc1_transform_2 i) (hinb1_2 i)).WholeWords (EltTy.packing .f32)

variable [Facts₀]

def dot_S8x256_S256x128_S8x128_1_0_0_1_n_n : DotDims S8x256 S256x128 S8x128 where
  lhsContracting := [1]
  rhsContracting := [0]
  lhsNonContracting := [0]
  rhsNonContracting := [1]
  lhsBatch := []
  rhsBatch := []
  wf := dot_S8x256_S256x128_S8x128_1_0_0_1_n_n_wf
def dot_S8x128_S128x40000_S8x40000_1_0_0_1_n_n : DotDims S8x128 S128x40000 S8x40000 where
  lhsContracting := [1]
  rhsContracting := [0]
  lhsNonContracting := [0]
  rhsNonContracting := [1]
  lhsBatch := []
  rhsBatch := []
  wf := dot_S8x128_S128x40000_S8x40000_1_0_0_1_n_n_wf

abbrev win0_0 : Pipeline.Window sig grid0 :=
  Pipeline.Window.ofSpec (Memref.whole main_arg1) S8x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x40000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x40000.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8x40000.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S1x32x200x200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x200x200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x32x200x200.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x256x200x200 : Shape := ⟨4, ![8, 256, 200, 200]⟩
abbrev S8x256 : Shape := ⟨2, ![8, 256]⟩
abbrev S256x1024 : Shape := ⟨2, ![256, 1024]⟩
abbrev S1024 : Shape := ⟨1, ![1024]⟩
abbrev S1024x40000 : Shape := ⟨2, ![1024, 40000]⟩
abbrev S40000 : Shape := ⟨1, ![40000]⟩
abbrev S8x1024 : Shape := ⟨2, ![8, 1024]⟩
abbrev S1x1024 : Shape := ⟨2, ![1, 1024]⟩
abbrev S_ : Shape := ⟨0, ![]⟩
abbrev S8x40000 : Shape := ⟨2, ![8, 40000]⟩
abbrev S1x40000 : Shape := ⟨2, ![1, 40000]⟩
abbrev S8x200x200 : Shape := ⟨3, ![8, 200, 200]⟩
abbrev S8x1x200x200 : Shape := ⟨4, ![8, 1, 200, 200]⟩

abbrev nBuf : Space → Nat
  | .hbm => 28
  | .vmem => 0
  | .smem => 0
  | _ => 0

abbrev bufTy : (tb : Table) → Fin (tcTables nBuf tb) → BufTy
  | .hbm, ⟨0, _⟩ => ⟨S8x256x200x200, .f32⟩
  | .hbm, ⟨1, _⟩ => ⟨S8x256, .f32⟩
  | .hbm, ⟨2, _⟩ => ⟨S256x1024, .f32⟩
  | .hbm, ⟨3, _⟩ => ⟨S1024, .f32⟩
  | .hbm, ⟨4, _⟩ => ⟨S1024x40000, .f32⟩
  | .hbm, ⟨5, _⟩ => ⟨S40000, .f32⟩
  | .hbm, ⟨6, _⟩ => ⟨S8x1024, .f32⟩
  | .hbm, ⟨7, _⟩ => ⟨S1x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .i1⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x40000, .f32⟩
  | .hbm, ⟨18, _⟩ => ⟨S1x40000, .f32⟩
  | .hbm, ⟨19, _⟩ => ⟨S8x40000, .f32⟩
  | .hbm, ⟨20, _⟩ => ⟨S8x40000, .f32⟩
  | .hbm, ⟨21, _⟩ => ⟨S8x200x200, .f32⟩
  | .hbm, ⟨22, _⟩ => ⟨S8x1x200x200, .f32⟩
  | .hbm, ⟨23, _⟩ => ⟨S_, .f32⟩
  | .hbm, ⟨24, _⟩ => ⟨S8x1x200x200, .f32⟩
  | .hbm, ⟨25, _⟩ => ⟨S8x1x200x200, .f32⟩
  | .hbm, ⟨26, _⟩ => ⟨S8x256x200x200, .f32⟩
  | .hbm, ⟨27, _⟩ => ⟨S8x256x200x200, .f32⟩
  | _, _ => ⟨S8x256x200x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8x1024_0_1 : S1x1024.BroadcastsInDim S8x1024 (![0, 1] : Fin 2 → Fin S8x1024.rank)
  bcast_S_S8x1024 : S_.BroadcastsInDim S8x1024 (![] : Fin 0 → Fin S8x1024.rank)
  bcast_S40000_S1x40000_1 : S40000.BroadcastsInDim S1x40000 (![1] : Fin 1 → Fin S1x40000.rank)
  bcast_S1x40000_S8x40000_0_1 : S1x40000.BroadcastsInDim S8x40000 (![0, 1] : Fin 2 → Fin S8x40000.rank)
  shapeCasts_S8x40000_S8x200x200 : S8x40000.ShapeCasts S8x200x200
  bcast_S8x200x200_S8x1x200x200_0_2_3 : S8x200x200.BroadcastsInDim S8x1x200x200 (![0, 2, 3] : Fin 3 → Fin S8x1x200x200.rank)
  bcast_S_S8x1x200x200 : S_.BroadcastsInDim S8x1x200x200 (![] : Fin 0 → Fin S8x1x200x200.rank)
  bcast_S8x1x200x200_S8x256x200x200_0_1_2_3 : S8x1x200x200.BroadcastsInDim S8x256x200x200 (![0, 1, 2, 3] : Fin 4 → Fin S8x256x200x200.rank)
  dot_S8x256_S256x1024_S8x1024_1_0_0_1_n_n_wf : DotDims.WF S8x256 S256x1024 S8x1024 [1] [0] [0] [1] [] []
  dot_S8x1024_S1024x40000_S8x40000_1_0_0_1_n_n_wf : DotDims.WF S8x1024 S1024x40000 S8x40000 [1] [0] [0] [1] [] []

variable [Facts₀]

def dot_S8x256_S256x1024_S8x1024_1_0_0_1_n_n : DotDims S8x256 S256x1024 S8x1024 where
  lhsContracting := [1]
  rhsContracting := [0]
  lhsNonContracting := [0]
  rhsNonContracting := [1]
  lhsBatch := []
  rhsBatch := []
  wf := dot_S8x256_S256x1024_S8x1024_1_0_0_1_n_n_wf
def dot_S8x1024_S1024x40000_S8x40000_1_0_0_1_n_n : DotDims S8x1024 S1024x40000 S8x40000 where
  lhsContracting := [1]
  rhsContracting := [0]
  lhsNonContracting := [0]
  rhsNonContracting := [1]
  lhsBatch := []
  rhsBatch := []
  wf := dot_S8x1024_S1024x40000_S8x40000_1_0_0_1_n_n_wf

class Facts : Prop extends Facts₀ where

variable [Facts]
-- ==== Proof.K.Ew.lean ====
/-
  The second kernel region — the elementwise scaling — at the buffer contents `V` it is entered with.

  Its grid is 8 × 8: point `(b, g)` works on batch row `b` and the 32 channels `32 g … 32 g + 31`. The body loads the
  point's image block `x[b, 32 g : 32 g + 32, :, :]` and the spatial map `w[b, :, :]`, spreads the map over the 32 channels
  and stores `x · (1 + w)` over the whole output block. Every block is a whole tile of its array, every point writes its
  output block back, and nothing is kept between points: each output block is one function of the two input blocks.
-/
import proofs.«163258_j32710470926816_1_alg».proof.Proof.Gen.Kernel.Launch
import proofs.«163258_j32710470926816_1_alg».proof.Proof.Gen.Kernel.Skeleton
import proofs.«163258_j32710470926816_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Ew

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The image window's staging buffer holds the point's image block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The map window's staging buffer holds batch row `b`'s map at every point: fetched when `b` changes, and in place
    through the eight channel groups of that row, where the block index does not move. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole image (and output) block. -/
abbrev rX : Rect S1x32x200x200 := Rect.unit (s := S1x32x200x200) ![0, 0, 0, 0] S1x32x200x200.size inb_S1x32x200x200_S1x32x200x200_0_0_0_0
/-- The whole map block. -/
abbrev rW : Rect S1x200x200 := Rect.unit (s := S1x200x200) ![0, 0, 0] S1x200x200.size inb_S1x200x200_S1x200x200_0_0_0

/-! ## What the body leaves in the output block -/

/-- The output block after the body, from the image block `x0` and the map block `x1`: its one store. -/
def out1_2 (x0 : Vec F S1x32x200x200 .f32) (x1 : Vec F S1x200x200 .f32) : Vec F S1x32x200x200 .f32 :=
  View.canon [⟨rX, k1_pay1 (View.ld x1 rW) (View.ld x0 rX)⟩]

/-- The one store covers the block. -/
theorem cover1_2 (p0 : Vec F S1x32x200x200 .f32) (y : S1x32x200x200.Idx) :
    ∃ pc ∈ ([⟨rX, p0⟩] : List (View.Piece (Elt F) S1x32x200x200 .f32)), y ∈ pc.1.set :=
  View.cover_of_tiled [⟨rX, p0⟩] S1x32x200x200.size (by rfl) y

/-! ## The body's triple -/

set_option maxHeartbeats 1000000 in
/-- On whole staging buffers, the two inputs' at contents `x0`, `x1` and the output's at anything, the body runs to the
    continuation with the inputs as they were and the output block at `out1_2 x0 x1`. -/
theorem sound_kernel1 (c : Dev nD) (E : Set ℕ) (i : grid1.Coords)
    (arg2 : Memref sig .tc .vmem S1x32x200x200 .f32) (harg2 : arg2.IsWhole) (arg3 : Memref sig .tc .vmem S1x200x200 .f32) (harg3 : arg3.IsWhole)
    (arg4 : Memref sig .tc .vmem S1x32x200x200 .f32) (harg4 : arg4.IsWhole)
    (x0 : Vec F S1x32x200x200 .f32) (x1 : Vec F S1x200x200 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__ew_kernel i arg2 harg2 arg3 harg3 arg4 harg4) K := by
  simp only [cc1__ew_kernel_eq_skeleton]; unfold cc1__ew_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region on core `c`: the arrays as the region finds them; after the body at point `t` each
    input's buffer at its block and the output's at `out1_2` of the two input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Ew

end
-- ==== Proof.K.MlpRuns.lean ====
/-
  The first kernel region — the two-layer perceptron — case by case.

  Its grid has 8 points; point `t` works on hidden units `128 t … 128 t + 127`: it multiplies the localization rows by
  the `t`-th block of 128 columns of the first weight matrix, adds that block of the first bias, applies the leaky
  rectifier, multiplies by the `t`-th block of 128 rows of the second weight matrix and ADDS the product to an
  accumulator the kernel keeps in a scratch buffer between points. Two branches on the point shape the body: at the
  first point the accumulator is first reset to zero; at the last point the accumulator plus the second bias is stored
  into the output block, which only then is written back. So the body runs in three ways: at the first point (reset,
  accumulate), at the six middle points (accumulate), at the last point (accumulate, emit). Here: each way's run on any
  whole staging buffers, with what it leaves in the accumulator and in the output block as the pieces its stores write.
-/
import proofs.«163258_j32710470926816_1_alg».proof.Proof.Gen.Kernel.Launch
import proofs.«163258_j32710470926816_1_alg».proof.Proof.Gen.Kernel.Skeleton
import proofs.«163258_j32710470926816_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- "This is the first point", as the body computes it from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last point". -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Before the last point the body stores nothing into the output block, -/
theorem idleAt0_5 : ∀ t : Fin cfg0.N, ¬cond0_1 (grid0.coords t) → cfg0.idle 5 (grid0.coords t) = true := by decide +kernel
/-- and the block is not written back there; -/
theorem noFlush0_5 : ∀ t : Fin cfg0.N, ¬cond0_1 (grid0.coords t) → (cfg0.win 5).flush t = false := by decide +kernel
/-- at the last point it stores into it. -/
theorem liveAt0_5 : ∀ t : Fin cfg0.N, cond0_1 (grid0.coords t) → cfg0.idle 5 (grid0.coords t) = false := by decide +kernel

/-! ## The buffers the body works on -/

/-- One staging buffer of the output window, through which its contents are stated. -/
abbrev VO0_5 : View sig .tc .vmem S8x40000 .f32 := (Memref.whole cc0_stg5_0 : Memref sig .tc .vmem S8x40000 .f32).view
abbrev ms0_0 (t : Fin cfg0.N) : Memref sig .tc .vmem S8x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x40000 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x40000 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x40000 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0 : Memref sig .tc .vmem S8x40000 .f32 := Memref.whole cc0_scratch0
abbrev VS0 : View sig .tc .vmem S8x40000 .f32 := scM0.view

/-! ## The three runs -/

set_option maxHeartbeats 4000000 in
/-- THE FIRST POINT (reset, accumulate; nothing emitted). The inputs' buffers at their contents, the output block at
    contents `xi5` handed back untouched, the accumulator at anything: the body runs to the continuation with the inputs as
    they were and the accumulator with the pieces `LS0` written. -/
noncomputable def kernelRun0_A (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : cond0_0 i) (hc1 : ¬cond0_1 i)
    (x0 : Vec F S8x256 .f32) (x1 : Vec F S256x128 .bf16) (x2 : Vec F S1x128 .f32) (x3 : Vec F S128x40000 .bf16) (x4 : Vec F S1x40000 .f32) :
    Σ' (L5 : List (View.Piece (Elt F) S8x40000 .f32)), { LS0 : List (View.Piece (Elt F) S8x40000 .f32) //
      ∀ (xi5 : Vec F S8x40000 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__lambda_ i arg1 harg1 arg2 harg2 arg3 harg3 arg4 harg4 arg5 harg5 arg6 harg6 arg7 harg7) K } := by
  refine ⟨[], ?_, fun xi5 E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in
/-- A MIDDLE POINT (accumulate only). As the first point's, with the accumulator at the contents `xs0` the point before
    left. -/
noncomputable def kernelRun0_B (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : ¬cond0_0 i) (hc1 : ¬cond0_1 i)
    (x0 : Vec F S8x256 .f32) (x1 : Vec F S256x128 .bf16) (x2 : Vec F S1x128 .f32) (x3 : Vec F S128x40000 .bf16) (x4 : Vec F S1x40000 .f32) (xs0 : Vec F S8x40000 .f32) :
    Σ' (L5 : List (View.Piece (Elt F) S8x40000 .f32)), { LS0 : List (View.Piece (Elt F) S8x40000 .f32) //
      ∀ (xi5 : Vec F S8x40000 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__lambda_ i arg1 harg1 arg2 harg2 arg3 harg3 arg4 harg4 arg5 harg5 arg6 harg6 arg7 harg7) K } := by
  refine ⟨[], ?_, fun xi5 E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in
/-- THE LAST POINT (accumulate, emit). The output block at anything, left with the pieces `L5` written. -/
noncomputable def kernelRun0_C (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : ¬cond0_0 i) (hc1 : cond0_1 i)
    (x0 : Vec F S8x256 .f32) (x1 : Vec F S256x128 .bf16) (x2 : Vec F S1x128 .f32) (x3 : Vec F S128x40000 .bf16) (x4 : Vec F S1x40000 .f32) (xs0 : Vec F S8x40000 .f32) :
    Σ' (L5 : List (View.Piece (Elt F) S8x40000 .f32)), { LS0 : List (View.Piece (Elt F) S8x40000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__lambda_ i arg1 harg1 arg2 harg2 arg3 harg3 arg4 harg4 arg5 harg5 arg6 harg6 arg7 harg7) K } := by
  refine ⟨?_, ?_, fun E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Mlp

end
-- ==== Proof.K.Mlp.lean ====
/-
  The first kernel region — the two-layer perceptron — at the buffer contents `V` it is entered with: what its
  accumulator and its output block hold after each of the 8 points, the region's invariant, its proof data, and the
  body's obligation to the pipeline.

  The accumulator after point `n` is what that point's way of running (first / middle / last: `MlpRuns`) leaves in
  it, computed from the point's five input blocks and, after the first point, from what point `n - 1` left. The output
  block is stored only at the last point (and only then written back); before that the window is idle and its buffer is
  handed back as found. Between points the region's invariant keeps the accumulator at exactly those contents; before the
  first point the accumulator holds anything (the first point resets it), and after the last the contents are forgotten.
-/
import proofs.«163258_j32710470926816_1_alg».proof.Proof.K.MlpRuns

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's staging buffer holds the point's block at every point, fetched there or still in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What each way of running leaves -/

/-- The first point's stores into the accumulator cover it. -/
theorem scover0_A (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : cond0_0 i) (hc1 : ¬cond0_1 i)
    (x0 : Vec F S8x256 .f32) (x1 : Vec F S256x128 .bf16) (x2 : Vec F S1x128 .f32) (x3 : Vec F S128x40000 .bf16) (x4 : Vec F S1x40000 .f32) (y : S8x40000.Idx) :
    ∃ pc ∈ (kernelRun0_A c i arg1 harg1 arg2 harg2 arg3 harg3 arg4 harg4 arg5 harg5 arg6 harg6 arg7 harg7 hc0 hc1 x0 x1 x2 x3 x4).2.1, y ∈ pc.1.set :=
  View.cover_of_tiledL (kernelRun0_A c i arg1 harg1 arg2 harg2 arg3 harg3 arg4 harg4 arg5 harg5 arg6 harg6 arg7 harg7 hc0 hc1 x0 x1 x2 x3 x4).2.1 S8x40000.size (by sl_kernel_rfl) y

/-- What the first point leaves in the accumulator. -/
def sout0_A (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : cond0_0 i) (hc1 : ¬cond0_1 i)
    (x0 : Vec F S8x256 .f32) (x1 : Vec F S256x128 .bf16) (x2 : Vec F S1x128 .f32) (x3 : Vec F S128x40000 .bf16) (x4 : Vec F S1x40000 .f32) : Vec F S8x40000 .f32 :=
  VS0.read (Elt F) (VS0.writes (Elt F) VS0.junk (kernelRun0_A c i arg1 harg1 arg2 harg2 arg3 harg3 arg4 harg4 arg5 harg5 arg6 harg6 arg7 harg7 hc0 hc1 x0 x1 x2 x3 x4).2.1)

/-- A middle point's store into the accumulator covers it. -/
theorem scover0_B (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : ¬cond0_0 i) (hc1 : ¬cond0_1 i)
    (x0 : Vec F S8x256 .f32) (x1 : Vec F S256x128 .bf16) (x2 : Vec F S1x128 .f32) (x3 : Vec F S128x40000 .bf16) (x4 : Vec F S1x40000 .f32) (xs0 : Vec F S8x40000 .f32) (y : S8x40000.Idx) :
    ∃ pc ∈ (kernelRun0_B c i arg1 harg1 arg2 harg2 arg3 harg3 arg4 harg4 arg5 harg5 arg6 harg6 arg7 harg7 hc0 hc1 x0 x1 x2 x3 x4 xs0).2.1, y ∈ pc.1.set :=
  View.cover_of_tiledL (kernelRun0_B c i arg1 harg1 arg2 harg2 arg3 harg3 arg4 harg4 arg5 harg5 arg6 harg6 arg7 harg7 hc0 hc1 x0 x1 x2 x3 x4 xs0).2.1 S8x40000.size (by sl_kernel_rfl) y

/-- What a middle point leaves in the accumulator, over what the point before left (`xs0`). -/
def sout0_B (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : ¬cond0_0 i) (hc1 : ¬cond0_1 i)
    (x0 : Vec F S8x256 .f32) (x1 : Vec F S256x128 .bf16) (x2 : Vec F S1x128 .f32) (x3 : Vec F S128x40000 .bf16) (x4 : Vec F S1x40000 .f32) (xs0 : Vec F S8x40000 .f32) : Vec F S8x40000 .f32 :=
  VS0.read (Elt F) (VS0.writes (Elt F) VS0.junk (kernelRun0_B c i arg1 harg1 arg2 harg2 arg3 harg3 arg4 harg4 arg5 harg5 arg6 harg6 arg7 harg7 hc0 hc1 x0 x1 x2 x3 x4 xs0).2.1)

/-- The last point's store into the accumulator covers it, -/
theorem scover0_C (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : ¬cond0_0 i) (hc1 : cond0_1 i)
    (x0 : Vec F S8x256 .f32) (x1 : Vec F S256x128 .bf16) (x2 : Vec F S1x128 .f32) (x3 : Vec F S128x40000 .bf16) (x4 : Vec F S1x40000 .f32) (xs0 : Vec F S8x40000 .f32) (y : S8x40000.Idx) :
    ∃ pc ∈ (kernelRun0_C c i arg1 harg1 arg2 harg2 arg3 harg3 arg4 harg4 arg5 harg5 arg6 harg6 arg7 harg7 hc0 hc1 x0 x1 x2 x3 x4 xs0).2.1, y ∈ pc.1.set :=
  View.cover_of_tiledL (kernelRun0_C c i arg1 harg1 arg2 harg2 arg3 harg3 arg4 harg4 arg5 harg5 arg6 harg6 arg7 harg7 hc0 hc1 x0 x1 x2 x3 x4 xs0).2.1 S8x40000.size (by sl_kernel_rfl) y

/-- and its store into the output block covers that. -/
theorem cover0_C_5 (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : ¬cond0_0 i) (hc1 : cond0_1 i)
    (x0 : Vec F S8x256 .f32) (x1 : Vec F S256x128 .bf16) (x2 : Vec F S1x128 .f32) (x3 : Vec F S128x40000 .bf16) (x4 : Vec F S1x40000 .f32) (xs0 : Vec F S8x40000 .f32) (y : S8x40000.Idx) :
    ∃ pc ∈ (kernelRun0_C c i arg1 harg1 arg2 harg2 arg3 harg3 arg4 harg4 arg5 harg5 arg6 harg6 arg7 harg7 hc0 hc1 x0 x1 x2 x3 x4 xs0).1, y ∈ pc.1.set :=
  View.cover_of_tiledL (kernelRun0_C c i arg1 harg1 arg2 harg2 arg3 harg3 arg4 harg4 arg5 harg5 arg6 harg6 arg7 harg7 hc0 hc1 x0 x1 x2 x3 x4 xs0).1 S8x40000.size (by sl_kernel_rfl) y

/-- What the last point leaves in the accumulator, -/
def sout0_C (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : ¬cond0_0 i) (hc1 : cond0_1 i)
    (x0 : Vec F S8x256 .f32) (x1 : Vec F S256x128 .bf16) (x2 : Vec F S1x128 .f32) (x3 : Vec F S128x40000 .bf16) (x4 : Vec F S1x40000 .f32) (xs0 : Vec F S8x40000 .f32) : Vec F S8x40000 .f32 :=
  VS0.read (Elt F) (VS0.writes (Elt F) VS0.junk (kernelRun0_C c i arg1 harg1 arg2 harg2 arg3 harg3 arg4 harg4 arg5 harg5 arg6 harg6 arg7 harg7 hc0 hc1 x0 x1 x2 x3 x4 xs0).2.1)

/-- and in the output block. -/
def out0_C_5 (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : ¬cond0_0 i) (hc1 : cond0_1 i)
    (x0 : Vec F S8x256 .f32) (x1 : Vec F S256x128 .bf16) (x2 : Vec F S1x128 .f32) (x3 : Vec F S128x40000 .bf16) (x4 : Vec F S1x40000 .f32) (xs0 : Vec F S8x40000 .f32) : Vec F S8x40000 .f32 :=
  VO0_5.read (Elt F) (VO0_5.writes (Elt F) VO0_5.junk (kernelRun0_C c i arg1 harg1 arg2 harg2 arg3 harg3 arg4 harg4 arg5 harg5 arg6 harg6 arg7 harg7 hc0 hc1 x0 x1 x2 x3 x4 xs0).1)

/-- The output block's contents at a point that stores nothing into it: a placeholder nothing consults (there the
    block is neither written back nor read at the next point). -/
def idleOut : Vec F S8x40000 .f32 := VO0_5.read (Elt F) VO0_5.junk

/-! ## Point by point -/

theorem lt8 {n : ℕ} (hn : n < cfg0.N) : n < 8 := lt_of_lt_of_eq hn (show cfg0.N = 8 from N_0)

/-- The output block and the accumulator after the body at position `n` (a pair: output block, accumulator). -/
def outsAt0 (c : Dev nD) : (n : ℕ) → n < cfg0.N → Vec F S8x40000 .f32 × Vec F S8x40000 .f32
  | 0, hn => (idleOut, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : (n + 1) % 8 = 7 then
      (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => (fun h => by have := lt8 hn; (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => (fun h => by have := lt8 hn; (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
    else
      (idleOut,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => (fun h => by have := lt8 hn; (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- At the first point. -/
theorem outsAt0_A (c : Dev nD) (t : Fin cfg0.N) (h0 : t.val % 8 = 0) (h1 : ¬t.val % 8 = 7) :
    outsAt0 V c t.val t.isLt = (idleOut, sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (by exfalso; have := lt8 hn; (try dsimp only at h0); omega)

/-- At a middle point, over what the point before left. -/
theorem outsAt0_B (c : Dev nD) (t : Fin cfg0.N) (h0 : ¬t.val % 8 = 0) (h1 : ¬t.val % 8 = 7) :
    outsAt0 V c t.val t.isLt = (idleOut, sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- At the last point, over what the point before left. -/
theorem outsAt0_C (c : Dev nD) (t : Fin cfg0.N) (h0 : ¬t.val % 8 = 0) (h1 : t.val % 8 = 7) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The region's invariant -/

/-- The scoped buffers that are neither a staging buffer of this region nor its accumulator (the other region's staging
    buffers), each whole at some contents: they ride along untouched. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region is entered with, the accumulator singled out: it at anything, the other scoped buffers, the
    generator register. -/
theorem PhiA0_eq (c : Dev nD) :
    (Pipeline.ΦA spec0 c : sProp 𝕄)
      = iprop(iprop((∃ d, owns (c : Thread nD τ) scM0 fullShare d) ∗ otherScoped c) ∗ (∃ r, prngReg c r)) := by
  unfold Pipeline.ΦA otherScoped; rw [scopedRest0_eq]; simp only [scM0, owns_whole]; try rfl

/-- The invariant before position `n`: before the first point, what the region is entered with; afterwards the
    accumulator at what the point before left in it. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ otherScoped c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ otherScoped c) ∗ (∃ r, prngReg c r)) := by
  cases n with
  | zero => exact absurd rfl hz
  | succ n => rfl

/-! ## The proof data -/

/-- The proof data of the region on core `c`: the arrays as the region finds them; after the body at point `t` each
    input's buffer at its block and the output's at `outsAt0`'s first component; the invariant `PhiS`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point: the inputs' buffers hold their blocks; the point is the first, a middle or the last one, and
    that way's run applies; the invariant hands the body the accumulator at what the point before left (at anything at
    the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 8 := lt8 t.isLt
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  rw [show (dat0 V c).leavesExact 3 t = owns (c : Thread nD τ) (ms0_3 t) fullShare ((dat0 V c).after 3 t) from by
        unfold Dat.leavesExact; rw [liveAt0_3 t], after0_3]
  rw [show (dat0 V c).leavesExact 4 t = owns (c : Thread nD τ) (ms0_4 t) fullShare ((dat0 V c).after 4 t) from by
        unfold Dat.leavesExact; rw [liveAt0_4 t], after0_4]
  by_cases h1 : t.val % 8 = 7
  · have h0 : ¬t.val % 8 = 0 := by omega
    have hz : t.val ≠ 0 := by omega
    rw [show (dat0 V c).leavesExact 5 t = owns (c : Thread nD τ) (ms0_5 t) fullShare ((dat0 V c).after 5 t) from by
      unfold Dat.leavesExact; rw [liveAt0_5 t ((hcond0_1 t).mpr h1)], after0_5]
    rw [outsAt0_C V c t h0 h1]
    unfold out0_C_5 sout0_C; (try dsimp only)
    rw [PhiS_castSucc V c t, PhiS_pos V c _ _ hz]
    iintro ⟨⟨⟨HS0, Hoth⟩, Hg⟩, Ho, ⟨%d0, H0⟩, ⟨%d1, H1⟩, ⟨%d2, H2⟩, ⟨%d3, H3⟩, ⟨%d4, H4⟩, ⟨%d5, H5⟩⟩
    iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_C c _ _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_C_5 c _ _ _ _ _ _ _ _ _ _ _ _ _ _ _ _ _ _ _ _ _ _ _)
  · rw [Dat.leavesExact_idle (dat0 V c) 5 t (idleAt0_5 t (fun h => h1 ((hcond0_1 t).mp h))) (noFlush0_5 t (fun h => h1 ((hcond0_1 t).mp h)))]
    by_cases h0 : t.val % 8 = 0
    · have hz : t.val = 0 := by omega
      rw [outsAt0_A V c t h0 h1]
      unfold sout0_A; (try dsimp only)
      rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · have hz : t.val ≠ 0 := by omega
      rw [outsAt0_B V c t h0 h1]
      unfold sout0_B; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives that back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 8 := N_0; omega)

end Cert.Kernel.Mlp

end
-- ==== Proof.K.Run.lean ====
/-
  The run of the whole program, from the launch to the return.

  The program is four stretches in order: four host operations (two format conversions and two reshapes, each into
  a buffer of its own), the first region (8 grid points over six windows; its body carries a scratch accumulator
  from one point to the next), one host reshape, and the second region (64 grid points over three windows).

  The contents of a core's unscoped buffers are followed through the four stretches as a fold from the launch
  memory: a host stretch applies its operations in order, a region replaces its windows' arrays by what its
  write-backs leave and touches nothing else. Read back through the fold, every argument array ends as launched:
  no host operation writes one, and a region meets one only through an input window.

  Each region's proof data and body obligation are taken as given (at the contents the region is entered with);
  this file lays the four stretches end to end, each entered from the state the one before leaves, and concludes
  that every weakly fair run terminates without fault with every unscoped buffer at the end of the fold.
-/
import proofs.«163258_j32710470926816_1_alg».proof.Proof.Gen.Kernel.Launch
import proofs.«163258_j32710470926816_1_alg».proof.Proof.Gen.Kernel.Skeleton
import proofs.«163258_j32710470926816_1_alg».proof.Proof.Gen.Kernel.Points
import proofs.«163258_j32710470926816_1_alg».proof.Proof.K.Ew
import proofs.«163258_j32710470926816_1_alg».proof.Proof.K.Mlp
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Cert.Kernel.Ew Cert.Kernel.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold: a core's buffer contents at the five boundaries -/

/-- At launch: the memory the run starts from, read on core `c`. -/
abbrev W0 : Dev nD → Valuation τ sig (Elt F) := fun c b => m ((c : Dev nD), b)
/-- After the first host stretch: the two converted copies and the two reshaped copies are in place. -/
abbrev W1 : Dev nD → Valuation τ sig (Elt F) := fun c => StableHlo.after hostOps0 (W0 m c)
/-- The same contents, indexed by the core's own references: what the first region is entered with. -/
abbrev V1 : (c : Dev nD) → (b : Ref sig .tc) → Buf (Elt F) ((c : Thread nD τ).loc b) := fun c b => W1 m c b

/-- After the first region: each of its six arrays holds what the region leaves there (an input array what it
    held, the output array its write-backs in grid order), every other buffer is as the region found it. -/
def W2 (c : Dev nD) : Valuation τ sig (Elt F) :=
  Pipeline.withArrays spec0 c (W1 m c) fun w => (Mlp.dat0 (V1 m) c).arrAt w cfg0.N

/-- The fold at one of the first region's arrays. -/
theorem W2_arr (c : Dev nD) (w : Fin cfg0.W) :
    W2 m c (Proc.devRef .tc (Pipeline.arrRef spec0 w)) = (Mlp.dat0 (V1 m) c).arrAt w cfg0.N := by
  unfold W2; exact Pipeline.withArrays_arr spec0 launch0.win.arr_inj c _ _ w

/-- The fold at a buffer that is none of the first region's arrays. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev V2 : (c : Dev nD) → (b : Ref sig .tc) → Buf (Elt F) ((c : Thread nD τ).loc b) := fun c b => W2 m c b

/-- The two facts that put the first region's arrays back among the unscoped buffers at its exit: an array holds
    what the region leaves, -/
theorem hF0 (c : Dev nD) (w : Fin cfg0.W) : (Mlp.dat0 (V1 m) c).arrAt w cfg0.N = V2 m c (Pipeline.arrRef spec0 w) :=
  (W2_arr m c w).symm
/-- and a buffer outside the arrays holds what it held at entry. -/
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: the first region's output, reshaped, is in place. -/
abbrev W3 : Dev nD → Valuation τ sig (Elt F) := fun c => StableHlo.after hostOps1 (W2 m c)
/-- What the second region is entered with. -/
abbrev V3 : (c : Dev nD) → (b : Ref sig .tc) → Buf (Elt F) ((c : Thread nD τ).loc b) := fun c b => W3 m c b

/-- After the second region, which is the end of the run: its three arrays at what it leaves, the rest untouched. -/
def W4 (c : Dev nD) : Valuation τ sig (Elt F) :=
  Pipeline.withArrays spec1 c (W3 m c) fun w => (Ew.dat1 (V3 m) c).arrAt w cfg1.N

theorem W4_arr (c : Dev nD) (w : Fin cfg1.W) :
    W4 m c (Proc.devRef .tc (Pipeline.arrRef spec1 w)) = (Ew.dat1 (V3 m) c).arrAt w cfg1.N := by
  unfold W4; exact Pipeline.withArrays_arr spec1 launch1.win.arr_inj c _ _ w

theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

abbrev V4 : (c : Dev nD) → (b : Ref sig .tc) → Buf (Elt F) ((c : Thread nD τ).loc b) := fun c b => W4 m c b

theorem hF1 (c : Dev nD) (w : Fin cfg1.W) : (Ew.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## Reading an argument back through the fold

A host operation writes exactly its result buffer, so a host stretch keeps every buffer outside the list of its
results; a region keeps every buffer that is no array of its windows, and an input window's array as well. -/

/-- One written buffer lies in the list of written buffers. -/
theorem single_sub {Ws : List (Ref sig .tc)} {y : Ref sig .tc} (hy : y ∈ Ws) :
    ({Proc.devRef (τ := τ) .tc y} : Finset (DevRef τ sig)) ⊆ (Ws.map (Proc.devRef (τ := τ) .tc)).toFinset :=
  Finset.singleton_subset_iff.mpr (List.mem_toFinset.mpr (List.mem_map_of_mem hy))

/-- The first host stretch writes the four copies and nothing else. -/
theorem W1_keep (c : Dev nD) (r : Ref sig .tc) (hr : r ∉ [main_v0, main_v1, main_v2, main_v3]) :
    W1 m c (Proc.devRef .tc r) = W0 m c (Proc.devRef .tc r) :=
  StableHlo.after_of_writes_sub (W := [main_v0, main_v1, main_v2, main_v3]) hostOps0 (W0 m c)
    ⟨single_sub (by decide), single_sub (by decide), single_sub (by decide), single_sub (by decide)⟩ hr

/-- The second host stretch writes the reshaped copy and nothing else. -/
theorem W3_keep (c : Dev nD) (r : Ref sig .tc) (hr : r ∉ [main_v5]) :
    W3 m c (Proc.devRef .tc r) = W2 m c (Proc.devRef .tc r) :=
  StableHlo.after_of_writes_sub (W := [main_v5]) hostOps1 (W2 m c) (single_sub (by decide)) hr

/-- The image (8 × 256 × 200 × 200): the second region's first window, an input. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) :=
        (W4_arr m c 0).trans (((Ew.dat1 (V3 m) c).arrAt_in 0 rfl _).trans (Ew.A_eq1 (V3 m) c 0))
    _ = W2 m c (Proc.devRef .tc main_arg0) := W3_keep m c main_arg0 (by decide)
    _ = W1 m c (Proc.devRef .tc main_arg0) := W2_of_ne m c main_arg0 (by decide)
    _ = W0 m c (Proc.devRef .tc main_arg0) := W1_keep m c main_arg0 (by decide)
    _ = m ((c : Thread nD τ).loc main_arg0) := rfl

/-- The 8 × 256 localization rows: the first region's first window, an input. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_keep m c main_arg1 (by decide)
    _ = W1 m c (Proc.devRef .tc main_arg1) :=
        (W2_arr m c 0).trans (((Mlp.dat0 (V1 m) c).arrAt_in 0 rfl _).trans (Mlp.A_eq0 (V1 m) c 0))
    _ = W0 m c (Proc.devRef .tc main_arg1) := W1_keep m c main_arg1 (by decide)
    _ = m ((c : Thread nD τ).loc main_arg1) := rfl

/-- An argument that only a host operation reads: no region has it as an array and nothing writes it. -/
theorem W4_untouched (c : Dev nD) (r : Ref sig .tc) (h4 : ∀ w, Pipeline.arrRef spec1 w ≠ r) (h3 : r ∉ [main_v5])
    (h2 : ∀ w, Pipeline.arrRef spec0 w ≠ r) (h1 : r ∉ [main_v0, main_v1, main_v2, main_v3]) :
    W4 m c (Proc.devRef .tc r) = m ((c : Thread nD τ).loc r) :=
  calc W4 m c (Proc.devRef .tc r)
    _ = W3 m c (Proc.devRef .tc r) := W4_of_ne m c r h4
    _ = W2 m c (Proc.devRef .tc r) := W3_keep m c r h3
    _ = W1 m c (Proc.devRef .tc r) := W2_of_ne m c r h2
    _ = W0 m c (Proc.devRef .tc r) := W1_keep m c r h1
    _ = m ((c : Thread nD τ).loc r) := rfl

theorem W4_main_arg2 (c : Dev nD) : W4 m c (Proc.devRef .tc main_arg2) = m ((c : Thread nD τ).loc main_arg2) :=
  W4_untouched m c main_arg2 (by decide) (by decide) (by decide) (by decide)
theorem W4_main_arg3 (c : Dev nD) : W4 m c (Proc.devRef .tc main_arg3) = m ((c : Thread nD τ).loc main_arg3) :=
  W4_untouched m c main_arg3 (by decide) (by decide) (by decide) (by decide)
theorem W4_main_arg4 (c : Dev nD) : W4 m c (Proc.devRef .tc main_arg4) = m ((c : Thread nD τ).loc main_arg4) :=
  W4_untouched m c main_arg4 (by decide) (by decide) (by decide) (by decide)
theorem W4_main_arg5 (c : Dev nD) : W4 m c (Proc.devRef .tc main_arg5) = m ((c : Thread nD τ).loc main_arg5) :=
  W4_untouched m c main_arg5 (by decide) (by decide) (by decide) (by decide)

/-! ## The two regions' proof data, and what a core carries between stretches -/

/-- No region has a prefetched table, so there is nothing to admit. -/
abbrev adm : (p : Fin 2) → (pcfgs (F := F) p).Adm := fun p => (cfgs p).toPCfg_adm

/-- Each region's proof data at the contents it is entered with: the first at `V1`, the second at `V3`. -/
def pdats : (p : Fin 2) → (c : Dev nD) → Dat τ (Elt F) Unit ℕ (UR sig nD τ) ℕ (Pipeline.pin (pcfgs (F := F)) adm p) c
  | ⟨0, _⟩ => fun c => Mlp.dat0 (V1 m) c
  | ⟨1, _⟩ => fun c => Ew.dat1 (V3 m) c

abbrev 𝒱₀ : Variants := Variants.none
/-- No core waits on another: no level is in use. -/
abbrev L : GSem nD τ sig → Finset Unit := fun _ => ∅
abbrev lv : GSem nD τ sig → Unit → ℕ := fun _ _ => 0

/-- Beside its unscoped buffers a core carries its generator register, at whatever state, and owes nothing. -/
abbrev R (c : Dev nD) : sProp 𝕄 := iprop((∃ r, prngReg c r) ∗ ∃ W, owes (c : Thread nD τ) (0 : CellTallies nD τ sig Unit) W)

/-- A host stretch from the contents `W`: it holds every unscoped buffer at `W c` before and at the operations'
    results after, with `R` alongside. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither host stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- An unscoped reference of the core is one of the buffers the core's state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The state a core ends in, without the (empty) debt: every unscoped buffer at the end of the fold, the register. -/
abbrev Tₙ (c : Dev nD) : sProp 𝕄 := iprop(StableHlo.held (c : Thread nD τ) (Pipeline.ucRefs τ sig) (W4 m c) ∗ ∃ r, prngReg c r)

/-! ## The regions as stretches of the run -/

set_option backward.isDefEq.respectTransparency.types false in
/-- THE FIRST REGION, entered from the buffers at `W1` and left at `W2`. At entry its six arrays are taken out of the
    unscoped buffers and the rest goes round the region; the register and the scoped buffers no window stages make the
    class invariant, from which the region's own invariant at the first point follows (`Mlp.hin0`); at the last point
    that invariant gives the class invariant back (`Mlp.hout0`), and the arrays at their final contents rejoin the rest. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Mlp.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun w => Mlp.A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := Pipeline.ΦA spec0 c) ?_ (Mlp.hin0 (V1 m) c)
    unfold Pipeline.ΦA
    iintro ⟨Hp, -, Hr⟩
    isplitl [Hr]; · iexact Hr
    iexact Hp
  hout c := by
    rw [Pipeline.ownSems0_none]
    refine BIBase.Entails.trans (Q := Pipeline.ΦA spec0 c) (Mlp.hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION, entered from the buffers at `W3` and left at `W4`, the end of the run. Its invariant is the
    class invariant itself at every point. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Ew.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun w => Ew.A_eq1 (V3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The four stretches in order, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]

/-- The program is the four stretches run one after the other. -/
theorem main_run (c : Dev nD) : main (F := F) c = Pipeline.Seg.run (segs m) := (main_chain c).trans (by chain_rfl)

set_option backward.isDefEq.respectTransparency.types false in
/-- THE RUN. From any memory with every counter at zero, every weakly fair run of the program on the cores
    terminates without fault, and at the end each core's unscoped buffers hold the end of the fold. The launch deals
    each core its unscoped buffers at the launch memory, its register and an empty debt; the stretches chain, each
    post-state being the next pre-state word for word; the last state is read against the final memory. -/
theorem run_main : θ_run defs (onTc (τ := τ) (main (F := F))) ⟨m, fun _ => 0, ρ⟩
    (fun r => ∀ c : Dev nD, ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun _ h => h)

/-! ## What the run says of the arguments and of the result -/

/-- None of the thirteen unscoped references is scoped, so each is among the buffers the run's conclusion reads. -/
theorem read_at {r : PUnit × MemSt nD τ sig (Elt F)}
    (h : ∀ c : Dev nD, ∀ b ∈ Pipeline.ucRefs τ sig, r.2.mem ((c : Thread nD τ).1, b) = W4 m c b)
    (c : Dev nD) (b : Ref sig .tc) (hb : ¬ (Proc.devRef .tc b : DevRef τ sig).isScoped) :
    r.2.mem ((c.tc : Thread nD τ).loc b) = W4 m c (Proc.devRef .tc b) :=
  h c _ (mem_uc b hb)

/-- THE FRAME: the run terminates without fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(read_at m h c main_arg0 (by decide)).trans (W4_main_arg0 m c),
     (read_at m h c main_arg1 (by decide)).trans (W4_main_arg1 m c),
     (read_at m h c main_arg2 (by decide)).trans (W4_main_arg2 m c),
     (read_at m h c main_arg3 (by decide)).trans (W4_main_arg3 m c),
     (read_at m h c main_arg4 (by decide)).trans (W4_main_arg4 m c),
     (read_at m h c main_arg5 (by decide)).trans (W4_main_arg5 m c)⟩) (run_main m ρ)

/-- THE VALUE: the same run, read at the result buffer as well — it holds the end of the fold there. -/
theorem run_value : θ_run defs (onTc (τ := τ) (main (F := F))) ⟨m, fun _ => 0, ρ⟩ (fun r => ∀ c : Dev nD,
      r.2.mem ((c.tc : Thread nD τ).loc main_v6) = W4 m c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨read_at m h c main_v6 (by decide),
     (read_at m h c main_arg0 (by decide)).trans (W4_main_arg0 m c),
     (read_at m h c main_arg1 (by decide)).trans (W4_main_arg1 m c),
     (read_at m h c main_arg2 (by decide)).trans (W4_main_arg2 m c),
     (read_at m h c main_arg3 (by decide)).trans (W4_main_arg3 m c),
     (read_at m h c main_arg4 (by decide)).trans (W4_main_arg4 m c),
     (read_at m h c main_arg5 (by decide)).trans (W4_main_arg5 m c)⟩) (run_main m ρ)

end Cert.Kernel.Run

end
-- ==== Proof.KI.Ew.lean ====
/-
  The second kernel region — the elementwise scaling — at the buffer contents `V` it is entered with.

  Its grid is 8 × 8: point `(b, g)` works on batch row `b` and the 32 channels `32 g … 32 g + 31`. The body loads the
  point's image block `x[b, 32 g : 32 g + 32, :, :]` and the spatial map `w[b, :, :]`, spreads the map over the 32 channels
  and stores `x · (1 + w)` over the whole output block. Every block is a whole tile of its array, every point writes its
  output block back, and nothing is kept between points: each output block is one function of the two input blocks.
-/
import proofs.«163258_j32710470926816_1_alg».proof.Proof.Gen.KernelIdeal.Launch
import proofs.«163258_j32710470926816_1_alg».proof.Proof.Gen.KernelIdeal.Skeleton
import proofs.«163258_j32710470926816_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Ew

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The image window's staging buffer holds the point's image block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The map window's staging buffer holds batch row `b`'s map at every point: fetched when `b` changes, and in place
    through the eight channel groups of that row, where the block index does not move. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole image (and output) block. -/
abbrev rX : Rect S1x32x200x200 := Rect.unit (s := S1x32x200x200) ![0, 0, 0, 0] S1x32x200x200.size inb_S1x32x200x200_S1x32x200x200_0_0_0_0
/-- The whole map block. -/
abbrev rW : Rect S1x200x200 := Rect.unit (s := S1x200x200) ![0, 0, 0] S1x200x200.size inb_S1x200x200_S1x200x200_0_0_0

/-! ## What the body leaves in the output block -/

/-- The output block after the body, from the image block `x0` and the map block `x1`: its one store. -/
def out1_2 (x0 : Vec F S1x32x200x200 .f32) (x1 : Vec F S1x200x200 .f32) : Vec F S1x32x200x200 .f32 :=
  View.canon [⟨rX, k1_pay1 (View.ld x1 rW) (View.ld x0 rX)⟩]

/-- The one store covers the block. -/
theorem cover1_2 (p0 : Vec F S1x32x200x200 .f32) (y : S1x32x200x200.Idx) :
    ∃ pc ∈ ([⟨rX, p0⟩] : List (View.Piece (Elt F) S1x32x200x200 .f32)), y ∈ pc.1.set :=
  View.cover_of_tiled [⟨rX, p0⟩] S1x32x200x200.size (by rfl) y

/-! ## The body's triple -/

set_option maxHeartbeats 1000000 in
/-- On whole staging buffers, the two inputs' at contents `x0`, `x1` and the output's at anything, the body runs to the
    continuation with the inputs as they were and the output block at `out1_2 x0 x1`. -/
theorem sound_kernel1 (c : Dev nD) (E : Set ℕ) (i : grid1.Coords)
    (arg2 : Memref sig .tc .vmem S1x32x200x200 .f32) (harg2 : arg2.IsWhole) (arg3 : Memref sig .tc .vmem S1x200x200 .f32) (harg3 : arg3.IsWhole)
    (arg4 : Memref sig .tc .vmem S1x32x200x200 .f32) (harg4 : arg4.IsWhole)
    (x0 : Vec F S1x32x200x200 .f32) (x1 : Vec F S1x200x200 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__ew_kernel i arg2 harg2 arg3 harg3 arg4 harg4) K := by
  simp only [cc1__ew_kernel_eq_skeleton]; unfold cc1__ew_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region on core `c`: the arrays as the region finds them; after the body at point `t` each
    input's buffer at its block and the output's at `out1_2` of the two input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Ew

end
-- ==== Proof.KI.MlpRuns.lean ====
/-
  The first kernel region — the two-layer perceptron — case by case.

  Its grid has 8 points; point `t` works on hidden units `128 t … 128 t + 127`: it multiplies the localization rows by
  the `t`-th block of 128 columns of the first weight matrix, adds that block of the first bias, applies the leaky
  rectifier, multiplies by the `t`-th block of 128 rows of the second weight matrix and ADDS the product to an
  accumulator the kernel keeps in a scratch buffer between points. Two branches on the point shape the body: at the
  first point the accumulator is first reset to zero; at the last point the accumulator plus the second bias is stored
  into the output block, which only then is written back. So the body runs in three ways: at the first point (reset,
  accumulate), at the six middle points (accumulate), at the last point (accumulate, emit). Here: each way's run on any
  whole staging buffers, with what it leaves in the accumulator and in the output block as the pieces its stores write.
-/
import proofs.«163258_j32710470926816_1_alg».proof.Proof.Gen.KernelIdeal.Launch
import proofs.«163258_j32710470926816_1_alg».proof.Proof.Gen.KernelIdeal.Skeleton
import proofs.«163258_j32710470926816_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- "This is the first point", as the body computes it from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last point". -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Before the last point the body stores nothing into the output block, -/
theorem idleAt0_5 : ∀ t : Fin cfg0.N, ¬cond0_1 (grid0.coords t) → cfg0.idle 5 (grid0.coords t) = true := by decide +kernel
/-- and the block is not written back there; -/
theorem noFlush0_5 : ∀ t : Fin cfg0.N, ¬cond0_1 (grid0.coords t) → (cfg0.win 5).flush t = false := by decide +kernel
/-- at the last point it stores into it. -/
theorem liveAt0_5 : ∀ t : Fin cfg0.N, cond0_1 (grid0.coords t) → cfg0.idle 5 (grid0.coords t) = false := by decide +kernel

/-! ## The buffers the body works on -/

/-- One staging buffer of the output window, through which its contents are stated. -/
abbrev VO0_5 : View sig .tc .vmem S8x40000 .f32 := (Memref.whole cc0_stg5_0 : Memref sig .tc .vmem S8x40000 .f32).view
abbrev ms0_0 (t : Fin cfg0.N) : Memref sig .tc .vmem S8x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x40000 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x40000 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x40000 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0 : Memref sig .tc .vmem S8x40000 .f32 := Memref.whole cc0_scratch0
abbrev VS0 : View sig .tc .vmem S8x40000 .f32 := scM0.view

/-! ## The three runs -/

set_option maxHeartbeats 4000000 in
/-- THE FIRST POINT (reset, accumulate; nothing emitted). The inputs' buffers at their contents, the output block at
    contents `xi5` handed back untouched, the accumulator at anything: the body runs to the continuation with the inputs as
    they were and the accumulator with the pieces `LS0` written. -/
noncomputable def kernelRun0_A (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : cond0_0 i) (hc1 : ¬cond0_1 i)
    (x0 : Vec F S8x256 .f32) (x1 : Vec F S256x128 .bf16) (x2 : Vec F S1x128 .f32) (x3 : Vec F S128x40000 .bf16) (x4 : Vec F S1x40000 .f32) :
    Σ' (L5 : List (View.Piece (Elt F) S8x40000 .f32)), { LS0 : List (View.Piece (Elt F) S8x40000 .f32) //
      ∀ (xi5 : Vec F S8x40000 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__lambda_ i arg1 harg1 arg2 harg2 arg3 harg3 arg4 harg4 arg5 harg5 arg6 harg6 arg7 harg7) K } := by
  refine ⟨[], ?_, fun xi5 E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in
/-- A MIDDLE POINT (accumulate only). As the first point's, with the accumulator at the contents `xs0` the point before
    left. -/
noncomputable def kernelRun0_B (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : ¬cond0_0 i) (hc1 : ¬cond0_1 i)
    (x0 : Vec F S8x256 .f32) (x1 : Vec F S256x128 .bf16) (x2 : Vec F S1x128 .f32) (x3 : Vec F S128x40000 .bf16) (x4 : Vec F S1x40000 .f32) (xs0 : Vec F S8x40000 .f32) :
    Σ' (L5 : List (View.Piece (Elt F) S8x40000 .f32)), { LS0 : List (View.Piece (Elt F) S8x40000 .f32) //
      ∀ (xi5 : Vec F S8x40000 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__lambda_ i arg1 harg1 arg2 harg2 arg3 harg3 arg4 harg4 arg5 harg5 arg6 harg6 arg7 harg7) K } := by
  refine ⟨[], ?_, fun xi5 E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 4000000 in
/-- THE LAST POINT (accumulate, emit). The output block at anything, left with the pieces `L5` written. -/
noncomputable def kernelRun0_C (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : ¬cond0_0 i) (hc1 : cond0_1 i)
    (x0 : Vec F S8x256 .f32) (x1 : Vec F S256x128 .bf16) (x2 : Vec F S1x128 .f32) (x3 : Vec F S128x40000 .bf16) (x4 : Vec F S1x40000 .f32) (xs0 : Vec F S8x40000 .f32) :
    Σ' (L5 : List (View.Piece (Elt F) S8x40000 .f32)), { LS0 : List (View.Piece (Elt F) S8x40000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__lambda_ i arg1 harg1 arg2 harg2 arg3 harg3 arg4 harg4 arg5 harg5 arg6 harg6 arg7 harg7) K } := by
  refine ⟨?_, ?_, fun E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Mlp

end
-- ==== Proof.KI.Mlp.lean ====
/-
  The first kernel region — the two-layer perceptron — at the buffer contents `V` it is entered with: what its
  accumulator and its output block hold after each of the 8 points, the region's invariant, its proof data, and the
  body's obligation to the pipeline.

  The accumulator after point `n` is what that point's way of running (first / middle / last: `MlpRuns`) leaves in
  it, computed from the point's five input blocks and, after the first point, from what point `n - 1` left. The output
  block is stored only at the last point (and only then written back); before that the window is idle and its buffer is
  handed back as found. Between points the region's invariant keeps the accumulator at exactly those contents; before the
  first point the accumulator holds anything (the first point resets it), and after the last the contents are forgotten.
-/
import proofs.«163258_j32710470926816_1_alg».proof.Proof.KI.MlpRuns

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's staging buffer holds the point's block at every point, fetched there or still in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What each way of running leaves -/

/-- The first point's stores into the accumulator cover it. -/
theorem scover0_A (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : cond0_0 i) (hc1 : ¬cond0_1 i)
    (x0 : Vec F S8x256 .f32) (x1 : Vec F S256x128 .bf16) (x2 : Vec F S1x128 .f32) (x3 : Vec F S128x40000 .bf16) (x4 : Vec F S1x40000 .f32) (y : S8x40000.Idx) :
    ∃ pc ∈ (kernelRun0_A c i arg1 harg1 arg2 harg2 arg3 harg3 arg4 harg4 arg5 harg5 arg6 harg6 arg7 harg7 hc0 hc1 x0 x1 x2 x3 x4).2.1, y ∈ pc.1.set :=
  View.cover_of_tiledL (kernelRun0_A c i arg1 harg1 arg2 harg2 arg3 harg3 arg4 harg4 arg5 harg5 arg6 harg6 arg7 harg7 hc0 hc1 x0 x1 x2 x3 x4).2.1 S8x40000.size (by sl_kernel_rfl) y

/-- What the first point leaves in the accumulator. -/
def sout0_A (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : cond0_0 i) (hc1 : ¬cond0_1 i)
    (x0 : Vec F S8x256 .f32) (x1 : Vec F S256x128 .bf16) (x2 : Vec F S1x128 .f32) (x3 : Vec F S128x40000 .bf16) (x4 : Vec F S1x40000 .f32) : Vec F S8x40000 .f32 :=
  VS0.read (Elt F) (VS0.writes (Elt F) VS0.junk (kernelRun0_A c i arg1 harg1 arg2 harg2 arg3 harg3 arg4 harg4 arg5 harg5 arg6 harg6 arg7 harg7 hc0 hc1 x0 x1 x2 x3 x4).2.1)

/-- A middle point's store into the accumulator covers it. -/
theorem scover0_B (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : ¬cond0_0 i) (hc1 : ¬cond0_1 i)
    (x0 : Vec F S8x256 .f32) (x1 : Vec F S256x128 .bf16) (x2 : Vec F S1x128 .f32) (x3 : Vec F S128x40000 .bf16) (x4 : Vec F S1x40000 .f32) (xs0 : Vec F S8x40000 .f32) (y : S8x40000.Idx) :
    ∃ pc ∈ (kernelRun0_B c i arg1 harg1 arg2 harg2 arg3 harg3 arg4 harg4 arg5 harg5 arg6 harg6 arg7 harg7 hc0 hc1 x0 x1 x2 x3 x4 xs0).2.1, y ∈ pc.1.set :=
  View.cover_of_tiledL (kernelRun0_B c i arg1 harg1 arg2 harg2 arg3 harg3 arg4 harg4 arg5 harg5 arg6 harg6 arg7 harg7 hc0 hc1 x0 x1 x2 x3 x4 xs0).2.1 S8x40000.size (by sl_kernel_rfl) y

/-- What a middle point leaves in the accumulator, over what the point before left (`xs0`). -/
def sout0_B (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : ¬cond0_0 i) (hc1 : ¬cond0_1 i)
    (x0 : Vec F S8x256 .f32) (x1 : Vec F S256x128 .bf16) (x2 : Vec F S1x128 .f32) (x3 : Vec F S128x40000 .bf16) (x4 : Vec F S1x40000 .f32) (xs0 : Vec F S8x40000 .f32) : Vec F S8x40000 .f32 :=
  VS0.read (Elt F) (VS0.writes (Elt F) VS0.junk (kernelRun0_B c i arg1 harg1 arg2 harg2 arg3 harg3 arg4 harg4 arg5 harg5 arg6 harg6 arg7 harg7 hc0 hc1 x0 x1 x2 x3 x4 xs0).2.1)

/-- The last point's store into the accumulator covers it, -/
theorem scover0_C (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : ¬cond0_0 i) (hc1 : cond0_1 i)
    (x0 : Vec F S8x256 .f32) (x1 : Vec F S256x128 .bf16) (x2 : Vec F S1x128 .f32) (x3 : Vec F S128x40000 .bf16) (x4 : Vec F S1x40000 .f32) (xs0 : Vec F S8x40000 .f32) (y : S8x40000.Idx) :
    ∃ pc ∈ (kernelRun0_C c i arg1 harg1 arg2 harg2 arg3 harg3 arg4 harg4 arg5 harg5 arg6 harg6 arg7 harg7 hc0 hc1 x0 x1 x2 x3 x4 xs0).2.1, y ∈ pc.1.set :=
  View.cover_of_tiledL (kernelRun0_C c i arg1 harg1 arg2 harg2 arg3 harg3 arg4 harg4 arg5 harg5 arg6 harg6 arg7 harg7 hc0 hc1 x0 x1 x2 x3 x4 xs0).2.1 S8x40000.size (by sl_kernel_rfl) y

/-- and its store into the output block covers that. -/
theorem cover0_C_5 (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : ¬cond0_0 i) (hc1 : cond0_1 i)
    (x0 : Vec F S8x256 .f32) (x1 : Vec F S256x128 .bf16) (x2 : Vec F S1x128 .f32) (x3 : Vec F S128x40000 .bf16) (x4 : Vec F S1x40000 .f32) (xs0 : Vec F S8x40000 .f32) (y : S8x40000.Idx) :
    ∃ pc ∈ (kernelRun0_C c i arg1 harg1 arg2 harg2 arg3 harg3 arg4 harg4 arg5 harg5 arg6 harg6 arg7 harg7 hc0 hc1 x0 x1 x2 x3 x4 xs0).1, y ∈ pc.1.set :=
  View.cover_of_tiledL (kernelRun0_C c i arg1 harg1 arg2 harg2 arg3 harg3 arg4 harg4 arg5 harg5 arg6 harg6 arg7 harg7 hc0 hc1 x0 x1 x2 x3 x4 xs0).1 S8x40000.size (by sl_kernel_rfl) y

/-- What the last point leaves in the accumulator, -/
def sout0_C (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : ¬cond0_0 i) (hc1 : cond0_1 i)
    (x0 : Vec F S8x256 .f32) (x1 : Vec F S256x128 .bf16) (x2 : Vec F S1x128 .f32) (x3 : Vec F S128x40000 .bf16) (x4 : Vec F S1x40000 .f32) (xs0 : Vec F S8x40000 .f32) : Vec F S8x40000 .f32 :=
  VS0.read (Elt F) (VS0.writes (Elt F) VS0.junk (kernelRun0_C c i arg1 harg1 arg2 harg2 arg3 harg3 arg4 harg4 arg5 harg5 arg6 harg6 arg7 harg7 hc0 hc1 x0 x1 x2 x3 x4 xs0).2.1)

/-- and in the output block. -/
def out0_C_5 (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : ¬cond0_0 i) (hc1 : cond0_1 i)
    (x0 : Vec F S8x256 .f32) (x1 : Vec F S256x128 .bf16) (x2 : Vec F S1x128 .f32) (x3 : Vec F S128x40000 .bf16) (x4 : Vec F S1x40000 .f32) (xs0 : Vec F S8x40000 .f32) : Vec F S8x40000 .f32 :=
  VO0_5.read (Elt F) (VO0_5.writes (Elt F) VO0_5.junk (kernelRun0_C c i arg1 harg1 arg2 harg2 arg3 harg3 arg4 harg4 arg5 harg5 arg6 harg6 arg7 harg7 hc0 hc1 x0 x1 x2 x3 x4 xs0).1)

/-- The output block's contents at a point that stores nothing into it: a placeholder nothing consults (there the
    block is neither written back nor read at the next point). -/
def idleOut : Vec F S8x40000 .f32 := VO0_5.read (Elt F) VO0_5.junk

/-! ## Point by point -/

theorem lt8 {n : ℕ} (hn : n < cfg0.N) : n < 8 := lt_of_lt_of_eq hn (show cfg0.N = 8 from N_0)

/-- The output block and the accumulator after the body at position `n` (a pair: output block, accumulator). -/
def outsAt0 (c : Dev nD) : (n : ℕ) → n < cfg0.N → Vec F S8x40000 .f32 × Vec F S8x40000 .f32
  | 0, hn => (idleOut, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : (n + 1) % 8 = 7 then
      (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => (fun h => by have := lt8 hn; (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => (fun h => by have := lt8 hn; (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
    else
      (idleOut,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => (fun h => by have := lt8 hn; (try dsimp only at h); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- At the first point. -/
theorem outsAt0_A (c : Dev nD) (t : Fin cfg0.N) (h0 : t.val % 8 = 0) (h1 : ¬t.val % 8 = 7) :
    outsAt0 V c t.val t.isLt = (idleOut, sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (by exfalso; have := lt8 hn; (try dsimp only at h0); omega)

/-- At a middle point, over what the point before left. -/
theorem outsAt0_B (c : Dev nD) (t : Fin cfg0.N) (h0 : ¬t.val % 8 = 0) (h1 : ¬t.val % 8 = 7) :
    outsAt0 V c t.val t.isLt = (idleOut, sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- At the last point, over what the point before left. -/
theorem outsAt0_C (c : Dev nD) (t : Fin cfg0.N) (h0 : ¬t.val % 8 = 0) (h1 : t.val % 8 = 7) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The region's invariant -/

/-- The scoped buffers that are neither a staging buffer of this region nor its accumulator (the other region's staging
    buffers), each whole at some contents: they ride along untouched. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region is entered with, the accumulator singled out: it at anything, the other scoped buffers, the
    generator register. -/
theorem PhiA0_eq (c : Dev nD) :
    (Pipeline.ΦA spec0 c : sProp 𝕄)
      = iprop(iprop((∃ d, owns (c : Thread nD τ) scM0 fullShare d) ∗ otherScoped c) ∗ (∃ r, prngReg c r)) := by
  unfold Pipeline.ΦA otherScoped; rw [scopedRest0_eq]; simp only [scM0, owns_whole]; try rfl

/-- The invariant before position `n`: before the first point, what the region is entered with; afterwards the
    accumulator at what the point before left in it. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ otherScoped c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ otherScoped c) ∗ (∃ r, prngReg c r)) := by
  cases n with
  | zero => exact absurd rfl hz
  | succ n => rfl

/-! ## The proof data -/

/-- The proof data of the region on core `c`: the arrays as the region finds them; after the body at point `t` each
    input's buffer at its block and the output's at `outsAt0`'s first component; the invariant `PhiS`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point: the inputs' buffers hold their blocks; the point is the first, a middle or the last one, and
    that way's run applies; the invariant hands the body the accumulator at what the point before left (at anything at
    the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 8 := lt8 t.isLt
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  rw [show (dat0 V c).leavesExact 3 t = owns (c : Thread nD τ) (ms0_3 t) fullShare ((dat0 V c).after 3 t) from by
        unfold Dat.leavesExact; rw [liveAt0_3 t], after0_3]
  rw [show (dat0 V c).leavesExact 4 t = owns (c : Thread nD τ) (ms0_4 t) fullShare ((dat0 V c).after 4 t) from by
        unfold Dat.leavesExact; rw [liveAt0_4 t], after0_4]
  by_cases h1 : t.val % 8 = 7
  · have h0 : ¬t.val % 8 = 0 := by omega
    have hz : t.val ≠ 0 := by omega
    rw [show (dat0 V c).leavesExact 5 t = owns (c : Thread nD τ) (ms0_5 t) fullShare ((dat0 V c).after 5 t) from by
      unfold Dat.leavesExact; rw [liveAt0_5 t ((hcond0_1 t).mpr h1)], after0_5]
    rw [outsAt0_C V c t h0 h1]
    unfold out0_C_5 sout0_C; (try dsimp only)
    rw [PhiS_castSucc V c t, PhiS_pos V c _ _ hz]
    iintro ⟨⟨⟨HS0, Hoth⟩, Hg⟩, Ho, ⟨%d0, H0⟩, ⟨%d1, H1⟩, ⟨%d2, H2⟩, ⟨%d3, H3⟩, ⟨%d4, H4⟩, ⟨%d5, H5⟩⟩
    iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_C c _ _ _ _ _ _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_C_5 c _ _ _ _ _ _ _ _ _ _ _ _ _ _ _ _ _ _ _ _ _ _ _)
  · rw [Dat.leavesExact_idle (dat0 V c) 5 t (idleAt0_5 t (fun h => h1 ((hcond0_1 t).mp h))) (noFlush0_5 t (fun h => h1 ((hcond0_1 t).mp h)))]
    by_cases h0 : t.val % 8 = 0
    · have hz : t.val = 0 := by omega
      rw [outsAt0_A V c t h0 h1]
      unfold sout0_A; (try dsimp only)
      rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · have hz : t.val ≠ 0 := by omega
      rw [outsAt0_B V c t h0 h1]
      unfold sout0_B; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives that back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

theorem hout0 (c : Dev nD) : (dat0 V c).Φ (Fin.last cfg0.N) ⊢ Pipeline.ΦA spec0 c :=
  Phi_out0 V c _ (by rw [Fin.val_last]; have : cfg0.N = 8 := N_0; omega)

end Cert.KernelIdeal.Mlp

end
-- ==== Proof.KI.Run.lean ====
/-
  The run of the whole program, from the launch to the return.

  The program is four stretches in order: four host operations (two format conversions and two reshapes, each into
  a buffer of its own), the first region (8 grid points over six windows; its body carries a scratch accumulator
  from one point to the next), one host reshape, and the second region (64 grid points over three windows).

  The contents of a core's unscoped buffers are followed through the four stretches as a fold from the launch
  memory: a host stretch applies its operations in order, a region replaces its windows' arrays by what its
  write-backs leave and touches nothing else. Read back through the fold, every argument array ends as launched:
  no host operation writes one, and a region meets one only through an input window.

  Each region's proof data and body obligation are taken as given (at the contents the region is entered with);
  this file lays the four stretches end to end, each entered from the state the one before leaves, and concludes
  that every weakly fair run terminates without fault with every unscoped buffer at the end of the fold.
-/
import proofs.«163258_j32710470926816_1_alg».proof.Proof.Gen.KernelIdeal.Launch
import proofs.«163258_j32710470926816_1_alg».proof.Proof.Gen.KernelIdeal.Skeleton
import proofs.«163258_j32710470926816_1_alg».proof.Proof.Gen.KernelIdeal.Points
import proofs.«163258_j32710470926816_1_alg».proof.Proof.KI.Ew
import proofs.«163258_j32710470926816_1_alg».proof.Proof.KI.Mlp
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Cert.KernelIdeal.Ew Cert.KernelIdeal.Mlp
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold: a core's buffer contents at the five boundaries -/

/-- At launch: the memory the run starts from, read on core `c`. -/
abbrev W0 : Dev nD → Valuation τ sig (Elt F) := fun c b => m ((c : Dev nD), b)
/-- After the first host stretch: the two converted copies and the two reshaped copies are in place. -/
abbrev W1 : Dev nD → Valuation τ sig (Elt F) := fun c => StableHlo.after hostOps0 (W0 m c)
/-- The same contents, indexed by the core's own references: what the first region is entered with. -/
abbrev V1 : (c : Dev nD) → (b : Ref sig .tc) → Buf (Elt F) ((c : Thread nD τ).loc b) := fun c b => W1 m c b

/-- After the first region: each of its six arrays holds what the region leaves there (an input array what it
    held, the output array its write-backs in grid order), every other buffer is as the region found it. -/
def W2 (c : Dev nD) : Valuation τ sig (Elt F) :=
  Pipeline.withArrays spec0 c (W1 m c) fun w => (Mlp.dat0 (V1 m) c).arrAt w cfg0.N

/-- The fold at one of the first region's arrays. -/
theorem W2_arr (c : Dev nD) (w : Fin cfg0.W) :
    W2 m c (Proc.devRef .tc (Pipeline.arrRef spec0 w)) = (Mlp.dat0 (V1 m) c).arrAt w cfg0.N := by
  unfold W2; exact Pipeline.withArrays_arr spec0 launch0.win.arr_inj c _ _ w

/-- The fold at a buffer that is none of the first region's arrays. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

abbrev V2 : (c : Dev nD) → (b : Ref sig .tc) → Buf (Elt F) ((c : Thread nD τ).loc b) := fun c b => W2 m c b

/-- The two facts that put the first region's arrays back among the unscoped buffers at its exit: an array holds
    what the region leaves, -/
theorem hF0 (c : Dev nD) (w : Fin cfg0.W) : (Mlp.dat0 (V1 m) c).arrAt w cfg0.N = V2 m c (Pipeline.arrRef spec0 w) :=
  (W2_arr m c w).symm
/-- and a buffer outside the arrays holds what it held at entry. -/
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: the first region's output, reshaped, is in place. -/
abbrev W3 : Dev nD → Valuation τ sig (Elt F) := fun c => StableHlo.after hostOps1 (W2 m c)
/-- What the second region is entered with. -/
abbrev V3 : (c : Dev nD) → (b : Ref sig .tc) → Buf (Elt F) ((c : Thread nD τ).loc b) := fun c b => W3 m c b

/-- After the second region, which is the end of the run: its three arrays at what it leaves, the rest untouched. -/
def W4 (c : Dev nD) : Valuation τ sig (Elt F) :=
  Pipeline.withArrays spec1 c (W3 m c) fun w => (Ew.dat1 (V3 m) c).arrAt w cfg1.N

theorem W4_arr (c : Dev nD) (w : Fin cfg1.W) :
    W4 m c (Proc.devRef .tc (Pipeline.arrRef spec1 w)) = (Ew.dat1 (V3 m) c).arrAt w cfg1.N := by
  unfold W4; exact Pipeline.withArrays_arr spec1 launch1.win.arr_inj c _ _ w

theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

abbrev V4 : (c : Dev nD) → (b : Ref sig .tc) → Buf (Elt F) ((c : Thread nD τ).loc b) := fun c b => W4 m c b

theorem hF1 (c : Dev nD) (w : Fin cfg1.W) : (Ew.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## Reading an argument back through the fold

A host operation writes exactly its result buffer, so a host stretch keeps every buffer outside the list of its
results; a region keeps every buffer that is no array of its windows, and an input window's array as well. -/

/-- One written buffer lies in the list of written buffers. -/
theorem single_sub {Ws : List (Ref sig .tc)} {y : Ref sig .tc} (hy : y ∈ Ws) :
    ({Proc.devRef (τ := τ) .tc y} : Finset (DevRef τ sig)) ⊆ (Ws.map (Proc.devRef (τ := τ) .tc)).toFinset :=
  Finset.singleton_subset_iff.mpr (List.mem_toFinset.mpr (List.mem_map_of_mem hy))

/-- The first host stretch writes the four copies and nothing else. -/
theorem W1_keep (c : Dev nD) (r : Ref sig .tc) (hr : r ∉ [main_v0, main_v1, main_v2, main_v3]) :
    W1 m c (Proc.devRef .tc r) = W0 m c (Proc.devRef .tc r) :=
  StableHlo.after_of_writes_sub (W := [main_v0, main_v1, main_v2, main_v3]) hostOps0 (W0 m c)
    ⟨single_sub (by decide), single_sub (by decide), single_sub (by decide), single_sub (by decide)⟩ hr

/-- The second host stretch writes the reshaped copy and nothing else. -/
theorem W3_keep (c : Dev nD) (r : Ref sig .tc) (hr : r ∉ [main_v5]) :
    W3 m c (Proc.devRef .tc r) = W2 m c (Proc.devRef .tc r) :=
  StableHlo.after_of_writes_sub (W := [main_v5]) hostOps1 (W2 m c) (single_sub (by decide)) hr

/-- The image (8 × 256 × 200 × 200): the second region's first window, an input. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) :=
        (W4_arr m c 0).trans (((Ew.dat1 (V3 m) c).arrAt_in 0 rfl _).trans (Ew.A_eq1 (V3 m) c 0))
    _ = W2 m c (Proc.devRef .tc main_arg0) := W3_keep m c main_arg0 (by decide)
    _ = W1 m c (Proc.devRef .tc main_arg0) := W2_of_ne m c main_arg0 (by decide)
    _ = W0 m c (Proc.devRef .tc main_arg0) := W1_keep m c main_arg0 (by decide)
    _ = m ((c : Thread nD τ).loc main_arg0) := rfl

/-- The 8 × 256 localization rows: the first region's first window, an input. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_keep m c main_arg1 (by decide)
    _ = W1 m c (Proc.devRef .tc main_arg1) :=
        (W2_arr m c 0).trans (((Mlp.dat0 (V1 m) c).arrAt_in 0 rfl _).trans (Mlp.A_eq0 (V1 m) c 0))
    _ = W0 m c (Proc.devRef .tc main_arg1) := W1_keep m c main_arg1 (by decide)
    _ = m ((c : Thread nD τ).loc main_arg1) := rfl

/-- An argument that only a host operation reads: no region has it as an array and nothing writes it. -/
theorem W4_untouched (c : Dev nD) (r : Ref sig .tc) (h4 : ∀ w, Pipeline.arrRef spec1 w ≠ r) (h3 : r ∉ [main_v5])
    (h2 : ∀ w, Pipeline.arrRef spec0 w ≠ r) (h1 : r ∉ [main_v0, main_v1, main_v2, main_v3]) :
    W4 m c (Proc.devRef .tc r) = m ((c : Thread nD τ).loc r) :=
  calc W4 m c (Proc.devRef .tc r)
    _ = W3 m c (Proc.devRef .tc r) := W4_of_ne m c r h4
    _ = W2 m c (Proc.devRef .tc r) := W3_keep m c r h3
    _ = W1 m c (Proc.devRef .tc r) := W2_of_ne m c r h2
    _ = W0 m c (Proc.devRef .tc r) := W1_keep m c r h1
    _ = m ((c : Thread nD τ).loc r) := rfl

theorem W4_main_arg2 (c : Dev nD) : W4 m c (Proc.devRef .tc main_arg2) = m ((c : Thread nD τ).loc main_arg2) :=
  W4_untouched m c main_arg2 (by decide) (by decide) (by decide) (by decide)
theorem W4_main_arg3 (c : Dev nD) : W4 m c (Proc.devRef .tc main_arg3) = m ((c : Thread nD τ).loc main_arg3) :=
  W4_untouched m c main_arg3 (by decide) (by decide) (by decide) (by decide)
theorem W4_main_arg4 (c : Dev nD) : W4 m c (Proc.devRef .tc main_arg4) = m ((c : Thread nD τ).loc main_arg4) :=
  W4_untouched m c main_arg4 (by decide) (by decide) (by decide) (by decide)
theorem W4_main_arg5 (c : Dev nD) : W4 m c (Proc.devRef .tc main_arg5) = m ((c : Thread nD τ).loc main_arg5) :=
  W4_untouched m c main_arg5 (by decide) (by decide) (by decide) (by decide)

/-! ## The two regions' proof data, and what a core carries between stretches -/

/-- No region has a prefetched table, so there is nothing to admit. -/
abbrev adm : (p : Fin 2) → (pcfgs (F := F) p).Adm := fun p => (cfgs p).toPCfg_adm

/-- Each region's proof data at the contents it is entered with: the first at `V1`, the second at `V3`. -/
def pdats : (p : Fin 2) → (c : Dev nD) → Dat τ (Elt F) Unit ℕ (UR sig nD τ) ℕ (Pipeline.pin (pcfgs (F := F)) adm p) c
  | ⟨0, _⟩ => fun c => Mlp.dat0 (V1 m) c
  | ⟨1, _⟩ => fun c => Ew.dat1 (V3 m) c

abbrev 𝒱₀ : Variants := Variants.none
/-- No core waits on another: no level is in use. -/
abbrev L : GSem nD τ sig → Finset Unit := fun _ => ∅
abbrev lv : GSem nD τ sig → Unit → ℕ := fun _ _ => 0

/-- Beside its unscoped buffers a core carries its generator register, at whatever state, and owes nothing. -/
abbrev R (c : Dev nD) : sProp 𝕄 := iprop((∃ r, prngReg c r) ∗ ∃ W, owes (c : Thread nD τ) (0 : CellTallies nD τ sig Unit) W)

/-- A host stretch from the contents `W`: it holds every unscoped buffer at `W c` before and at the operations'
    results after, with `R` alongside. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither host stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- An unscoped reference of the core is one of the buffers the core's state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The state a core ends in, without the (empty) debt: every unscoped buffer at the end of the fold, the register. -/
abbrev Tₙ (c : Dev nD) : sProp 𝕄 := iprop(StableHlo.held (c : Thread nD τ) (Pipeline.ucRefs τ sig) (W4 m c) ∗ ∃ r, prngReg c r)

/-! ## The regions as stretches of the run -/

set_option backward.isDefEq.respectTransparency.types false in
/-- THE FIRST REGION, entered from the buffers at `W1` and left at `W2`. At entry its six arrays are taken out of the
    unscoped buffers and the rest goes round the region; the register and the scoped buffers no window stages make the
    class invariant, from which the region's own invariant at the first point follows (`Mlp.hin0`); at the last point
    that invariant gives the class invariant back (`Mlp.hout0`), and the arrays at their final contents rejoin the rest. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Mlp.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun w => Mlp.A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := Pipeline.ΦA spec0 c) ?_ (Mlp.hin0 (V1 m) c)
    unfold Pipeline.ΦA
    iintro ⟨Hp, -, Hr⟩
    isplitl [Hr]; · iexact Hr
    iexact Hp
  hout c := by
    rw [Pipeline.ownSems0_none]
    refine BIBase.Entails.trans (Q := Pipeline.ΦA spec0 c) (Mlp.hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION, entered from the buffers at `W3` and left at `W4`, the end of the run. Its invariant is the
    class invariant itself at every point. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Ew.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun w => Ew.A_eq1 (V3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The four stretches in order, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]

/-- The program is the four stretches run one after the other. -/
theorem main_run (c : Dev nD) : main (F := F) c = Pipeline.Seg.run (segs m) := (main_chain c).trans (by chain_rfl)

set_option backward.isDefEq.respectTransparency.types false in
/-- THE RUN. From any memory with every counter at zero, every weakly fair run of the program on the cores
    terminates without fault, and at the end each core's unscoped buffers hold the end of the fold. The launch deals
    each core its unscoped buffers at the launch memory, its register and an empty debt; the stretches chain, each
    post-state being the next pre-state word for word; the last state is read against the final memory. -/
theorem run_main : θ_run defs (onTc (τ := τ) (main (F := F))) ⟨m, fun _ => 0, ρ⟩
    (fun r => ∀ c : Dev nD, ∀ b ∈ Pipeline.ucRefs τ sig, r.2.mem ((c : Thread nD τ).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun _ h => h)

/-! ## What the run says of the arguments and of the result -/

/-- None of the thirteen unscoped references is scoped, so each is among the buffers the run's conclusion reads. -/
theorem read_at {r : PUnit × MemSt nD τ sig (Elt F)}
    (h : ∀ c : Dev nD, ∀ b ∈ Pipeline.ucRefs τ sig, r.2.mem ((c : Thread nD τ).1, b) = W4 m c b)
    (c : Dev nD) (b : Ref sig .tc) (hb : ¬ (Proc.devRef .tc b : DevRef τ sig).isScoped) :
    r.2.mem ((c.tc : Thread nD τ).loc b) = W4 m c (Proc.devRef .tc b) :=
  h c _ (mem_uc b hb)

/-- THE FRAME: the run terminates without fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(read_at m h c main_arg0 (by decide)).trans (W4_main_arg0 m c),
     (read_at m h c main_arg1 (by decide)).trans (W4_main_arg1 m c),
     (read_at m h c main_arg2 (by decide)).trans (W4_main_arg2 m c),
     (read_at m h c main_arg3 (by decide)).trans (W4_main_arg3 m c),
     (read_at m h c main_arg4 (by decide)).trans (W4_main_arg4 m c),
     (read_at m h c main_arg5 (by decide)).trans (W4_main_arg5 m c)⟩) (run_main m ρ)

/-- THE VALUE: the same run, read at the result buffer as well — it holds the end of the fold there. -/
theorem run_value : θ_run defs (onTc (τ := τ) (main (F := F))) ⟨m, fun _ => 0, ρ⟩ (fun r => ∀ c : Dev nD,
      r.2.mem ((c.tc : Thread nD τ).loc main_v6) = W4 m c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨read_at m h c main_v6 (by decide),
     (read_at m h c main_arg0 (by decide)).trans (W4_main_arg0 m c),
     (read_at m h c main_arg1 (by decide)).trans (W4_main_arg1 m c),
     (read_at m h c main_arg2 (by decide)).trans (W4_main_arg2 m c),
     (read_at m h c main_arg3 (by decide)).trans (W4_main_arg3 m c),
     (read_at m h c main_arg4 (by decide)).trans (W4_main_arg4 m c),
     (read_at m h c main_arg5 (by decide)).trans (W4_main_arg5 m c)⟩) (run_main m ρ)

end Cert.KernelIdeal.Run

end
-- ==== Proof.Spec.lean ====
/-
  What both programs compute, as one function of the six argument arrays, entry by entry, on the extended reals.

  A localization vector `loc[b, ·]` of 256 features goes through a two-layer perceptron: the hidden layer
  `hidden[b, j] = leaky (∑ k, loc[b, k] · W1[k, j] + b1[j])` over 1024 units, where `leaky z` is `z` when `z ≥ 0`
  and `0.1 · z` otherwise, and the output layer `weight[b, n] = ∑ j, hidden[b, j] · W2[j, n] + b2[n]` over 40000
  units. The 40000 outputs are read as a 200 × 200 spatial map (row-major: position `(h, w)` is unit `200 · h + w`),
  and every channel of the image is scaled by it: `out[b, c, h, w] = x[b, c, h, w] · (1 + weight[b, 200 · h + w])`.
  The two float literals (0.1 and 1) are kept as their binary words: the same word stands on both sides.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The slope of the negative side, the float literal `0.1`. -/
abbrev tenth : EReal := Ideal.ofBits .f32 0x3DCCCCCD#32
/-- The float literal `1`. -/
abbrev one : EReal := Ideal.ofBits .f32 0x3F800000#32

/-- The leaky rectifier as both programs spell it: an ordered compare `z ≥ 0` selects `z`, else `0.1 · z`. -/
def leaky (z : EReal) : EReal :=
  Scalar.select (FloatOps.cmpf (F := Ideal) (φ := .f32) .oge z (Ideal.ofBits .f32 0x00000000#32)) z (tenth * z)

/-- Hidden unit `j` of batch row `p`. -/
def hidden (loc : (⟨2, ![8, 256]⟩ : Shape).Idx → EReal) (w1 : (⟨2, ![256, 1024]⟩ : Shape).Idx → EReal)
    (b1 : (⟨1, ![1024]⟩ : Shape).Idx → EReal) (p : Fin 8) (j : Fin 1024) : EReal :=
  leaky ((∑ k : Fin 256, loc (ix2 p k) * w1 (ix2 k j)) + b1 (ix1 j))

/-- Output unit `n` of batch row `p`: the spatial weight before it is laid out as a map. -/
def weight (loc : (⟨2, ![8, 256]⟩ : Shape).Idx → EReal) (w1 : (⟨2, ![256, 1024]⟩ : Shape).Idx → EReal)
    (b1 : (⟨1, ![1024]⟩ : Shape).Idx → EReal) (w2 : (⟨2, ![1024, 40000]⟩ : Shape).Idx → EReal)
    (b2 : (⟨1, ![40000]⟩ : Shape).Idx → EReal) (p : Fin 8) (n : Fin 40000) : EReal :=
  (∑ j : Fin 1024, hidden loc w1 b1 p j * w2 (ix2 j n)) + b2 (ix1 n)

/-- Position `(h, w)` of the 200 × 200 map is unit `200 · h + w` of the flat output row. -/
def flat (h w : Fin 200) : Fin 40000 := ⟨200 * h.val + w.val, by have := h.isLt; have := w.isLt; omega⟩

@[simp] theorem flat_val (h w : Fin 200) : (flat h w).val = 200 * h.val + w.val := rfl

/-- The result: every channel of the image scaled by one plus the spatial weight of its batch row. -/
def G (x : (⟨4, ![8, 256, 200, 200]⟩ : Shape).Idx → EReal) (loc : (⟨2, ![8, 256]⟩ : Shape).Idx → EReal)
    (w1 : (⟨2, ![256, 1024]⟩ : Shape).Idx → EReal) (b1 : (⟨1, ![1024]⟩ : Shape).Idx → EReal)
    (w2 : (⟨2, ![1024, 40000]⟩ : Shape).Idx → EReal) (b2 : (⟨1, ![40000]⟩ : Shape).Idx → EReal) :
    (⟨4, ![8, 256, 200, 200]⟩ : Shape).Idx → EReal := fun i =>
  x i * (one + weight loc w1 b1 w2 b2 (i 0) (flat (i 2) (i 3)))

theorem G_apply (x : (⟨4, ![8, 256, 200, 200]⟩ : Shape).Idx → EReal) (loc : (⟨2, ![8, 256]⟩ : Shape).Idx → EReal)
    (w1 : (⟨2, ![256, 1024]⟩ : Shape).Idx → EReal) (b1 : (⟨1, ![1024]⟩ : Shape).Idx → EReal)
    (w2 : (⟨2, ![1024, 40000]⟩ : Shape).Idx → EReal) (b2 : (⟨1, ![40000]⟩ : Shape).Idx → EReal)
    (b : Fin 8) (c : Fin 256) (h w : Fin 200) :
    G x loc w1 b1 w2 b2 (ix4 b c h w) = x (ix4 b c h w) * (one + weight loc w1 b1 w2 b2 b (flat h w)) := rfl

end Cert.Spec

end
-- ==== Proof.KI.EwValue.lean ====
/-
  The second kernel region's output array as one function of its two input arrays.

  The region's grid is 8 × 8: point t works on batch row b = t / 8 and channel group g = t % 8, the 32 channels
  32 g … 32 g + 31. Its output block at that point is x[b, 32 g + q, h, w] · (1 + wmap[b, h, w]) over q < 32, h, w < 200.
  The 64 output blocks tile the array [8, 256, 200, 200] and every point writes its block back, so the array ends at
  out[b, ch, h, w] = x[b, ch, h, w] · (1 + wmap[b, h, w]): entry (b, ch, h, w) is written by point 8 b + ch / 32.
-/
import proofs.«163258_j32710470926816_1_alg».proof.Proof.KI.Ew
import proofs.«163258_j32710470926816_1_alg».proof.Proof.Spec
import Idealize.ShloMosaic.Lib.Pipeline.Value
import Idealize.ShloMosaic.Lib.ValueIdx

set_option maxRecDepth 16384

noncomputable section

namespace Cert.KernelIdeal.EwValue

open Cert.KernelIdeal Cert.KernelIdeal.Gen
open Idealize.ShloMosaic Idealize.ShloMosaic.TcCoe Idealize.ShloMosaic.ValueIdx
open Idealize.SL.Sem
open Idealize.ShloMosaic.Pipeline (Dat)

/-! ## The body's arithmetic at an entry -/

/-- The all-zero offsets of a rank-4 and of a rank-3 block. -/
theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The map block [1, 200, 200] viewed as [1, 1, 200, 200] and spread over the 32 channels reads, at channel q, the map
    at (h, w). -/
theorem spread_apply (x1 : Vec Ideal S1x200x200 .f32) (z : Fin 1) (q : Fin 32) (h w : Fin 200) :
    broadcastTo S1x32x200x200
        (shapeCast S1x1x200x200 (shapeCast S1x1x200x200 (shapeCast S1x200x200 x1 shapeCasts_S1x200x200_S1x200x200)
          shapeCasts_S1x200x200_S1x1x200x200) shapeCasts_S1x1x200x200_S1x1x200x200)
        broadcasts_S1x1x200x200_S1x32x200x200 (ix4 z q h w)
      = x1 (ix3 z h w) := by
  rw [shapeCast_self, shapeCast_self]
  refine (broadcastTo_apply _ _ (ix4 z q h w) (ix4 (0 : Fin 1) (0 : Fin 1) h w) fun a => ?_).trans ?_
  · match a with
    | ⟨0, _⟩ => rfl
    | ⟨1, _⟩ => rfl
    | ⟨2, _⟩ => rfl
    | ⟨3, _⟩ => rfl
  · refine shapeCast_apply _ _ _ (ix3 z h w) ?_
    rw [Shape.rowMajor_val_three, Shape.rowMajor_val_four]
    have hz : z.val = 0 := by omega
    show ((z.val * 200 + h.val) * 200 + w.val) = (((0 * 1 + 0) * 200 + h.val) * 200 + w.val)
    omega

/-- The body's payload at entry (z, q, h, w) of the block: the image entry times one plus the map entry at (h, w). -/
theorem pay_apply (x0 : Vec Ideal S1x32x200x200 .f32) (x1 : Vec Ideal S1x200x200 .f32) (z : Fin 1) (q : Fin 32) (h w : Fin 200) :
    k1_pay1 x1 x0 (ix4 z q h w) = x0 (ix4 z q h w) * (Cert.Spec.one + x1 (ix3 z h w)) := by
  unfold k1_pay1
  refine (mulf_apply _ _ _).trans ?_
  refine congrArg (fun y => x0 (ix4 z q h w) * y) ?_
  refine (addf_apply _ _ _).trans ?_
  exact congrArg (fun y => Cert.Spec.one + y) (spread_apply x1 z q h w)

/-! ## The index maps, over the grid -/

/-- Point t = 8 b + g: the image and output blocks sit at block index (b, g, 0, 0), the map block at (b, 0, 0). -/
theorem idx_facts : ∀ t : Fin cfg1.N,
    win1_2.index t (0 : Fin 4) = t.val / 8 ∧ win1_2.index t (1 : Fin 4) = t.val % 8
    ∧ win1_2.index t (2 : Fin 4) = 0 ∧ win1_2.index t (3 : Fin 4) = 0
    ∧ win1_0.index t (0 : Fin 4) = t.val / 8 ∧ win1_0.index t (1 : Fin 4) = t.val % 8
    ∧ win1_0.index t (2 : Fin 4) = 0 ∧ win1_0.index t (3 : Fin 4) = 0
    ∧ win1_1.index t (0 : Fin 3) = t.val / 8 ∧ win1_1.index t (1 : Fin 3) = 0 ∧ win1_1.index t (2 : Fin 3) = 0 :=
  (by decide +kernel : ∀ t : Fin grid1.N,
    win1_2.index t (0 : Fin 4) = t.val / 8 ∧ win1_2.index t (1 : Fin 4) = t.val % 8
    ∧ win1_2.index t (2 : Fin 4) = 0 ∧ win1_2.index t (3 : Fin 4) = 0
    ∧ win1_0.index t (0 : Fin 4) = t.val / 8 ∧ win1_0.index t (1 : Fin 4) = t.val % 8
    ∧ win1_0.index t (2 : Fin 4) = 0 ∧ win1_0.index t (3 : Fin 4) = 0
    ∧ win1_1.index t (0 : Fin 3) = t.val / 8 ∧ win1_1.index t (1 : Fin 3) = 0 ∧ win1_1.index t (2 : Fin 3) = 0)

/-! ## The input blocks as entries of their arrays -/

variable (V : (c : Dev nD) → (b : Ref sig .tc) → Buf (Elt Ideal) ((c : Thread nD τ).loc b))

/-- The image block at point t: entry (z, q, h, w) is the image at (t / 8, 32 (t % 8) + q, h, w). -/
theorem iblk0_apply (c : Dev nD) (t : Fin cfg1.N) (z : Fin 1) (q : Fin 32) (h w : Fin 200) (k : S8x256x200x200.Idx)
    (hk0 : (k 0).val = t.val / 8) (hk1 : (k 1).val = 32 * (t.val % 8) + q.val) (hk2 : (k 2).val = h.val) (hk3 : (k 3).val = w.val) :
    (Ew.iblk1 V c 0 t : Vec Ideal S1x32x200x200 .f32) (ix4 z q h w) = (V c main_arg0 : S8x256x200x200.Idx → EReal) k := by
  obtain ⟨-, -, -, -, e0, e1, e2, e3, -⟩ := idx_facts t
  unfold Ew.iblk1
  rw [View.read_apply]
  show V c main_arg0 _ = V c main_arg0 _
  congr 1
  funext a
  apply Fin.ext
  have hz : z.val = 0 := by omega
  match a with
  | ⟨0, _⟩ => show win1_0.index t (0 : Fin 4) * 1 + 1 * z.val = (k 0).val; rw [e0, hk0]; omega
  | ⟨1, _⟩ => show win1_0.index t (1 : Fin 4) * 32 + 1 * q.val = (k 1).val; rw [e1, hk1]; omega
  | ⟨2, _⟩ => show win1_0.index t (2 : Fin 4) * 200 + 1 * h.val = (k 2).val; rw [e2, hk2]; omega
  | ⟨3, _⟩ => show win1_0.index t (3 : Fin 4) * 200 + 1 * w.val = (k 3).val; rw [e3, hk3]; omega

/-- The map block at point t: entry (z, h, w) is the map at (t / 8, h, w). -/
theorem iblk1_apply (c : Dev nD) (t : Fin cfg1.N) (z : Fin 1) (h w : Fin 200) (k : S8x200x200.Idx)
    (hk0 : (k 0).val = t.val / 8) (hk1 : (k 1).val = h.val) (hk2 : (k 2).val = w.val) :
    (Ew.iblk1 V c 1 t : Vec Ideal S1x200x200 .f32) (ix3 z h w) = (V c main_v5 : S8x200x200.Idx → EReal) k := by
  obtain ⟨-, -, -, -, -, -, -, -, e0, e1, e2⟩ := idx_facts t
  unfold Ew.iblk1
  rw [View.read_apply]
  show V c main_v5 _ = V c main_v5 _
  congr 1
  funext a
  apply Fin.ext
  have hz : z.val = 0 := by omega
  match a with
  | ⟨0, _⟩ => show win1_1.index t (0 : Fin 3) * 1 + 1 * z.val = (k 0).val; rw [e0, hk0]; omega
  | ⟨1, _⟩ => show win1_1.index t (1 : Fin 3) * 200 + 1 * h.val = (k 1).val; rw [e1, hk1]; omega
  | ⟨2, _⟩ => show win1_1.index t (2 : Fin 3) * 200 + 1 * w.val = (k 2).val; rw [e2, hk2]; omega

/-! ## What a point writes back -/

/-- The output array as one function of the image x and the map wm, entry by entry. -/
abbrev G (x : S8x256x200x200.Idx → EReal) (wm : S8x200x200.Idx → EReal) : S8x256x200x200.Idx → EReal :=
  fun i => x i * (Cert.Spec.one + wm (ix3 (i 0) (i 2) (i 3)))

/-- An image block x0 and a map block x1 that are batch row b, channel group g of the arrays x, wm give, through the
    body's arithmetic, that block of `G x wm`. -/
theorem block_eq (x0 : Vec Ideal S1x32x200x200 .f32) (x1 : Vec Ideal S1x200x200 .f32)
    (x : S8x256x200x200.Idx → EReal) (wm : S8x200x200.Idx → EReal) (b g : Nat)
    (h0 : ∀ (z : Fin 1) (q : Fin 32) (h w : Fin 200) (k : S8x256x200x200.Idx), (k 0).val = b → (k 1).val = 32 * g + q.val →
      (k 2).val = h.val → (k 3).val = w.val → x0 (ix4 z q h w) = x k)
    (h1 : ∀ (z : Fin 1) (h w : Fin 200) (k : S8x200x200.Idx), (k 0).val = b → (k 1).val = h.val → (k 2).val = w.val →
      x1 (ix3 z h w) = wm k)
    (z : Fin 1) (q : Fin 32) (h w : Fin 200) (k : S8x256x200x200.Idx)
    (hk0 : (k 0).val = b) (hk1 : (k 1).val = 32 * g + q.val) (hk2 : (k 2).val = h.val) (hk3 : (k 3).val = w.val) :
    k1_pay1 x1 x0 (ix4 z q h w) = G x wm k := by
  rw [pay_apply, h0 z q h w k hk0 hk1 hk2 hk3, h1 z h w (ix3 (k 0) (k 2) (k 3)) hk0 hk2 hk3]

/-- What point t writes back is block t of `G` of the two arrays as the region finds them. -/
theorem flushed_eq (c : Dev nD) (t : Fin cfg1.N) :
    (Ew.dat1 (F := Ideal) V c).flushed 2 t
      = ((cfg1.win 2).blk t).view.read (Elt Ideal) (G (V c main_arg0) (V c main_v5)) := by
  show (cfg1.win 2).cut (grid1.coords t) ((Ew.dat1 V c).after 2 t) = _
  rw [Ew.after1_2]
  unfold Ew.out1_2
  rw [View.canon_unit_zero hz4]
  simp only [View.ld_unit_zero (S := S1x32x200x200) hz4, View.ld_unit_zero (S := S1x200x200) hz3]
  obtain ⟨e0, e1, e2, e3, -⟩ := idx_facts t
  funext j
  obtain ⟨z, q, h, w, rfl⟩ : ∃ (z : Fin 1) (q : Fin 32) (h w : Fin 200), j = ix4 z q h w := ⟨j 0, j 1, j 2, j 3, eq_ix4 j⟩
  show k1_pay1 (Ew.iblk1 V c 1 t) (Ew.iblk1 V c 0 t) (ix4 z q h w)
    = G (V c main_arg0) (V c main_v5) (((cfg1.win 2).blk t).view.emb (ix4 z q h w))
  have hz : z.val = 0 := by omega
  refine block_eq (Ew.iblk1 V c 0 t) (Ew.iblk1 V c 1 t) (V c main_arg0) (V c main_v5) (t.val / 8) (t.val % 8)
    (fun z q h w k => iblk0_apply V c t z q h w k) (fun z h w k => iblk1_apply V c t z h w k) z q h w _ ?_ ?_ ?_ ?_
  · show win1_2.index t (0 : Fin 4) * 1 + 1 * z.val = t.val / 8; rw [e0]; omega
  · show win1_2.index t (1 : Fin 4) * 32 + 1 * q.val = 32 * (t.val % 8) + q.val; rw [e1]; omega
  · show win1_2.index t (2 : Fin 4) * 200 + 1 * h.val = h.val; rw [e2]; omega
  · show win1_2.index t (3 : Fin 4) * 200 + 1 * w.val = w.val; rw [e3]; omega

/-! ## The blocks cover the array -/

/-- An entry of the array is in point t's block iff each coordinate is in the block's range on its axis. -/
theorem mem_blk (t : Fin cfg1.N) (i : S8x256x200x200.Idx) :
    i ∈ ((cfg1.win 2).blk t).view.set ↔ ∀ a : Fin 4, win1_2.index t a * S1x32x200x200.size a ≤ (i a).val
      ∧ (i a).val < win1_2.index t a * S1x32x200x200.size a + S1x32x200x200.size a := by
  show i ∈ ((View.whole main_v6).slice (win1_2.rect t)).set ↔ _
  rw [View.set_slice_whole, Rect.mem_set_unit]
  exact Iff.rfl

/-- Entry (b, ch, h, w) is written by point 8 b + ch / 32. -/
theorem cover (i : S8x256x200x200.Idx) :
    ∃ t : Fin cfg1.N, (cfg1.win 2).flush t = true ∧ i ∈ ((cfg1.win 2).blk t).view.set := by
  have hi0 : (i 0).val < 8 := (i 0).isLt
  have hi1 : (i 1).val < 256 := (i 1).isLt
  have hi2 : (i 2).val < 200 := (i 2).isLt
  have hi3 : (i 3).val < 200 := (i 3).isLt
  obtain ⟨t, ht⟩ : ∃ t : Fin cfg1.N, t.val = 8 * (i 0).val + (i 1).val / 32 :=
    ⟨⟨8 * (i 0).val + (i 1).val / 32, by rw [show cfg1.N = 64 from N_1]; omega⟩, rfl⟩
  obtain ⟨e0, e1, e2, e3, -⟩ := idx_facts t
  refine ⟨t, flush1_2 t, ?_⟩
  rw [mem_blk]
  intro a
  match a with
  | ⟨0, _⟩ => show win1_2.index t (0 : Fin 4) * 1 ≤ (i 0).val ∧ (i 0).val < win1_2.index t (0 : Fin 4) * 1 + 1; rw [e0, ht]; omega
  | ⟨1, _⟩ => show win1_2.index t (1 : Fin 4) * 32 ≤ (i 1).val ∧ (i 1).val < win1_2.index t (1 : Fin 4) * 32 + 32; rw [e1, ht]; omega
  | ⟨2, _⟩ => show win1_2.index t (2 : Fin 4) * 200 ≤ (i 2).val ∧ (i 2).val < win1_2.index t (2 : Fin 4) * 200 + 200; rw [e2]; omega
  | ⟨3, _⟩ => show win1_2.index t (3 : Fin 4) * 200 ≤ (i 3).val ∧ (i 3).val < win1_2.index t (3 : Fin 4) * 200 + 200; rw [e3]; omega

/-! ## The array after the region -/

/-- After the region the output array holds, at (b, ch, h, w), the image entry there times one plus the map entry at
    (b, h, w): over the two arrays by name. -/
theorem final1' (c : Dev nD) (x : S8x256x200x200.Idx → EReal) (wm : S8x200x200.Idx → EReal)
    (hx : V c main_arg0 = x) (hw : V c main_v5 = wm) :
    (Ew.dat1 (F := Ideal) V c).arrAt 2 cfg1.N
      = fun i : S8x256x200x200.Idx => x i * (Cert.Spec.one + wm (ix3 (i 0) (i 2) (i 3))) := by
  subst hx hw
  exact (Ew.dat1 V c).arrAt_eq_of_cover 2 (G (V c main_arg0) (V c main_v5)) (fun t _ => flushed_eq V c t) cover

/-- The same over the region's entry contents themselves: the products and sums are the extended reals'. -/
theorem final1 (c : Dev nD) :
    (Ew.dat1 (F := Ideal) V c).arrAt 2 cfg1.N
      = fun i : S8x256x200x200.Idx => @HMul.hMul EReal EReal EReal instHMul (V c main_arg0 i)
          (@HAdd.hAdd EReal EReal EReal instHAdd Cert.Spec.one (V c main_v5 (ix3 (i 0) (i 2) (i 3)))) :=
  final1' V c _ _ rfl rfl

end Cert.KernelIdeal.EwValue

end
-- ==== Proof.KI.MlpPieces.lean ====
/-
  The first kernel region's found pieces, read back as values.

  Each way of running the body (first point, middle point, last point) leaves in the accumulator, and at the last
  point in the output block, the payload of ONE covering store through the whole-buffer rectangle at zero offsets,
  whose loads read whole buffers. Read back: the first point leaves the update applied to the zero block it has just
  stored; a middle and the last point leave the update applied to what the point before left; the last point's output
  block is that plus the second bias.
-/
import proofs.«163258_j32710470926816_1_alg».proof.Proof.KI.Mlp
import Idealize.ShloMosaic.Lib.Pipeline.Value
import Idealize.ShloMosaic.Lib.ValueIdx
import Idealize.ShloMosaic.Lib.Tactic

set_option maxRecDepth 16384

noncomputable section

namespace Cert.KernelIdeal.MlpValue

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)

variable {F : FTy → Type} [FloatOps F]

/-- The offsets of a whole rank-2 block are zero. -/
theorem hz2 : (![0, 0] : Fin 2 → Nat) = fun _ => 0 := funext fun a => by fin_cases a <;> rfl

/-- A middle point leaves the update of what the point before left. -/
theorem piece_B (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : ¬Mlp.cond0_0 i) (hc1 : ¬Mlp.cond0_1 i)
    (x0 : Vec F S8x256 .f32) (x1 : Vec F S256x128 .bf16) (x2 : Vec F S1x128 .f32) (x3 : Vec F S128x40000 .bf16) (x4 : Vec F S1x40000 .f32) (xs0 : Vec F S8x40000 .f32) :
    Mlp.sout0_B c i arg1 harg1 arg2 harg2 arg3 harg3 arg4 harg4 arg5 harg5 arg6 harg6 arg7 harg7 hc0 hc1 x0 x1 x2 x3 x4 xs0 = k0_pay2 x0 x1 x2 x3 xs0 := by
  unfold Mlp.sout0_B
  rw [View.read_writes_eq_canon _ _ _ (Mlp.scover0_B c i arg1 harg1 arg2 harg2 arg3 harg3 arg4 harg4 arg5 harg5 arg6 harg6 arg7 harg7 hc0 hc1 x0 x1 x2 x3 x4 xs0)]
  unfold Mlp.kernelRun0_B
  dsimp only
  sl_unfold_words
  rw [View.canon_unit_zero hz2]
  simp only [View.readAt_eq_ld, harg1.read_unread, harg2.read_unread, harg3.read_unread, harg4.read_unread, harg5.read_unread, harg7.read_unread,
    View.ld_unit_zero (S := S8x256) hz2, View.ld_unit_zero (S := S256x128) hz2, View.ld_unit_zero (S := S1x128) hz2,
    View.ld_unit_zero (S := S128x40000) hz2, View.ld_unit_zero (S := S1x40000) hz2, View.ld_unit_zero (S := S8x40000) hz2]

/-- The first point stores the zero block, reads it back, and leaves its update. -/
theorem piece_A (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : Mlp.cond0_0 i) (hc1 : ¬Mlp.cond0_1 i)
    (x0 : Vec F S8x256 .f32) (x1 : Vec F S256x128 .bf16) (x2 : Vec F S1x128 .f32) (x3 : Vec F S128x40000 .bf16) (x4 : Vec F S1x40000 .f32) :
    Mlp.sout0_A c i arg1 harg1 arg2 harg2 arg3 harg3 arg4 harg4 arg5 harg5 arg6 harg6 arg7 harg7 hc0 hc1 x0 x1 x2 x3 x4 = k0_pay2 x0 x1 x2 x3 (k0_pay1 (F := F)) := by
  unfold Mlp.sout0_A
  rw [View.read_writes_eq_canon _ _ _ (Mlp.scover0_A c i arg1 harg1 arg2 harg2 arg3 harg3 arg4 harg4 arg5 harg5 arg6 harg6 arg7 harg7 hc0 hc1 x0 x1 x2 x3 x4)]
  unfold Mlp.kernelRun0_A
  dsimp only
  sl_unfold_words
  rw [View.canon_cons_unit_zero (S := S8x40000) hz2, View.readCov_unit_zero (S := S8x40000) _ hz2]
  simp only [View.readAt_eq_ld, harg1.read_unread, harg2.read_unread, harg3.read_unread, harg4.read_unread, harg5.read_unread, harg7.read_unread,
    View.ld_unit_zero (S := S8x256) hz2, View.ld_unit_zero (S := S256x128) hz2, View.ld_unit_zero (S := S1x128) hz2,
    View.ld_unit_zero (S := S128x40000) hz2, View.ld_unit_zero (S := S1x40000) hz2, View.ld_unit_zero (S := S8x40000) hz2]

/-- The last point leaves in the accumulator the update of what the point before left, -/
theorem piece_C (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : ¬Mlp.cond0_0 i) (hc1 : Mlp.cond0_1 i)
    (x0 : Vec F S8x256 .f32) (x1 : Vec F S256x128 .bf16) (x2 : Vec F S1x128 .f32) (x3 : Vec F S128x40000 .bf16) (x4 : Vec F S1x40000 .f32) (xs0 : Vec F S8x40000 .f32) :
    Mlp.sout0_C c i arg1 harg1 arg2 harg2 arg3 harg3 arg4 harg4 arg5 harg5 arg6 harg6 arg7 harg7 hc0 hc1 x0 x1 x2 x3 x4 xs0 = k0_pay2 x0 x1 x2 x3 xs0 := by
  unfold Mlp.sout0_C
  rw [View.read_writes_eq_canon _ _ _ (Mlp.scover0_C c i arg1 harg1 arg2 harg2 arg3 harg3 arg4 harg4 arg5 harg5 arg6 harg6 arg7 harg7 hc0 hc1 x0 x1 x2 x3 x4 xs0)]
  unfold Mlp.kernelRun0_C
  dsimp only
  sl_unfold_words
  rw [View.canon_unit_zero hz2]
  simp only [View.readAt_eq_ld, harg1.read_unread, harg2.read_unread, harg3.read_unread, harg4.read_unread, harg5.read_unread, harg7.read_unread,
    View.ld_unit_zero (S := S8x256) hz2, View.ld_unit_zero (S := S256x128) hz2, View.ld_unit_zero (S := S1x128) hz2,
    View.ld_unit_zero (S := S128x40000) hz2, View.ld_unit_zero (S := S1x40000) hz2, View.ld_unit_zero (S := S8x40000) hz2]

/-- and in the output block that plus the second bias. -/
theorem piece_C_5 (c : Dev nD) (i : grid0.Coords) (arg1 : Memref sig .tc .vmem S8x256 .f32) (harg1 : arg1.IsWhole) (arg2 : Memref sig .tc .vmem S256x128 .bf16) (harg2 : arg2.IsWhole) (arg3 : Memref sig .tc .vmem S1x128 .f32) (harg3 : arg3.IsWhole) (arg4 : Memref sig .tc .vmem S128x40000 .bf16) (harg4 : arg4.IsWhole) (arg5 : Memref sig .tc .vmem S1x40000 .f32) (harg5 : arg5.IsWhole) (arg6 : Memref sig .tc .vmem S8x40000 .f32) (harg6 : arg6.IsWhole) (arg7 : Memref sig .tc .vmem S8x40000 .f32) (harg7 : arg7.IsWhole) (hc0 : ¬Mlp.cond0_0 i) (hc1 : Mlp.cond0_1 i)
    (x0 : Vec F S8x256 .f32) (x1 : Vec F S256x128 .bf16) (x2 : Vec F S1x128 .f32) (x3 : Vec F S128x40000 .bf16) (x4 : Vec F S1x40000 .f32) (xs0 : Vec F S8x40000 .f32) :
    Mlp.out0_C_5 c i arg1 harg1 arg2 harg2 arg3 harg3 arg4 harg4 arg5 harg5 arg6 harg6 arg7 harg7 hc0 hc1 x0 x1 x2 x3 x4 xs0 = k0_pay3 (k0_pay2 x0 x1 x2 x3 xs0) x4 := by
  unfold Mlp.out0_C_5
  rw [View.read_writes_eq_canon _ _ _ (Mlp.cover0_C_5 c i arg1 harg1 arg2 harg2 arg3 harg3 arg4 harg4 arg5 harg5 arg6 harg6 arg7 harg7 hc0 hc1 x0 x1 x2 x3 x4 xs0)]
  unfold Mlp.kernelRun0_C
  dsimp only
  sl_unfold_words
  rw [View.canon_unit_zero hz2]
  simp only [View.readAt_eq_ld, View.readCov_unit_zero (S := S8x40000) _ hz2, harg1.read_unread, harg2.read_unread, harg3.read_unread, harg4.read_unread, harg5.read_unread, harg7.read_unread,
    View.ld_unit_zero (S := S8x256) hz2, View.ld_unit_zero (S := S256x128) hz2, View.ld_unit_zero (S := S1x128) hz2,
    View.ld_unit_zero (S := S128x40000) hz2, View.ld_unit_zero (S := S1x40000) hz2, View.ld_unit_zero (S := S8x40000) hz2]

end Cert.KernelIdeal.MlpValue

end
-- ==== Proof.KI.MlpBlocks.lean ====
/-
  The first kernel region's blocks as entries of their arrays.

  At point t the windows' index maps put the localization block and the second-bias block at block index (0, 0) —
  they are their whole arrays —, the first weight matrix's block at (0, t): columns 128 t … 128 t + 127, the first
  bias row's block at (0, t): the same columns, the second weight matrix's block at (t, 0): rows 128 t … 128 t + 127,
  and the output block at (0, 0): the whole output array. A block's entry sits in the array, on each axis, at the block
  index times the block's size plus its own coordinate. The output window is written back at the last point only, and
  its block there holds every entry of the array.
-/
import proofs.«163258_j32710470926816_1_alg».proof.Proof.KI.Mlp
import Idealize.ShloMosaic.Lib.Pipeline.Value
import Idealize.ShloMosaic.Lib.ValueIdx

set_option maxRecDepth 16384

noncomputable section

namespace Cert.KernelIdeal.MlpValue

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)

/-! ## The index maps, over the grid -/

/-- The block index of each window at point t. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0)

/-! ## The input blocks as entries of their arrays -/

variable (V : (c : Dev nD) → (b : Ref sig .tc) → Buf (Elt Ideal) ((c : Thread nD τ).loc b))

/-- The localization block is the whole array. -/
theorem blk0_apply (c : Dev nD) (t : Fin cfg0.N) (r : Fin 8) (s : Fin 256) (i : S8x256.Idx)
    (hi0 : (i 0).val = r.val) (hi1 : (i 1).val = s.val) :
    (Mlp.iblk0 V c 0 t : Vec Ideal S8x256 .f32) (ix2 r s) = (V c main_arg1 : S8x256.Idx → EReal) i := by
  obtain ⟨e0, e1, -⟩ := idx_facts t
  unfold Mlp.iblk0
  rw [View.read_apply]
  show V c main_arg1 _ = V c main_arg1 _
  congr 1
  funext a
  apply Fin.ext
  have hr := r.isLt
  match a with
  | ⟨0, _⟩ => show win0_0.index t (0 : Fin 2) * 8 + 1 * r.val = (i 0).val; rw [e0, hi0]; omega
  | ⟨1, _⟩ => show win0_0.index t (1 : Fin 2) * 256 + 1 * s.val = (i 1).val; rw [e1, hi1]; omega

/-- The first weight matrix's block at point t: entry (r, s) is the matrix at (r, 128 t + s). -/
theorem blk1_apply (c : Dev nD) (t : Fin cfg0.N) (r : Fin 256) (s : Fin 128) (i : S256x1024.Idx)
    (hi0 : (i 0).val = r.val) (hi1 : (i 1).val = 128 * t.val + s.val) :
    (Mlp.iblk0 V c 1 t : Vec Ideal S256x128 .bf16) (ix2 r s) = (V c main_v0 : S256x1024.Idx → EReal) i := by
  obtain ⟨-, -, e0, e1, -⟩ := idx_facts t
  unfold Mlp.iblk0
  rw [View.read_apply]
  show V c main_v0 _ = V c main_v0 _
  congr 1
  funext a
  apply Fin.ext
  have hr := r.isLt
  match a with
  | ⟨0, _⟩ => show win0_1.index t (0 : Fin 2) * 256 + 1 * r.val = (i 0).val; rw [e0, hi0]; omega
  | ⟨1, _⟩ => show win0_1.index t (1 : Fin 2) * 128 + 1 * s.val = (i 1).val; rw [e1, hi1]; omega

/-- The first bias row's block at point t: entry (0, s) is the row at (0, 128 t + s). -/
theorem blk2_apply (c : Dev nD) (t : Fin cfg0.N) (r : Fin 1) (s : Fin 128) (i : S1x1024.Idx)
    (hi0 : (i 0).val = 0) (hi1 : (i 1).val = 128 * t.val + s.val) :
    (Mlp.iblk0 V c 2 t : Vec Ideal S1x128 .f32) (ix2 r s) = (V c main_v2 : S1x1024.Idx → EReal) i := by
  obtain ⟨-, -, -, -, e0, e1, -⟩ := idx_facts t
  unfold Mlp.iblk0
  rw [View.read_apply]
  show V c main_v2 _ = V c main_v2 _
  congr 1
  funext a
  apply Fin.ext
  have hr := r.isLt
  match a with
  | ⟨0, _⟩ => show win0_2.index t (0 : Fin 2) * 1 + 1 * r.val = (i 0).val; rw [e0, hi0]; omega
  | ⟨1, _⟩ => show win0_2.index t (1 : Fin 2) * 128 + 1 * s.val = (i 1).val; rw [e1, hi1]; omega

/-- The second weight matrix's block at point t: entry (r, s) is the matrix at (128 t + r, s). -/
theorem blk3_apply (c : Dev nD) (t : Fin cfg0.N) (r : Fin 128) (s : Fin 40000) (i : S1024x40000.Idx)
    (hi0 : (i 0).val = 128 * t.val + r.val) (hi1 : (i 1).val = s.val) :
    (Mlp.iblk0 V c 3 t : Vec Ideal S128x40000 .bf16) (ix2 r s) = (V c main_v1 : S1024x40000.Idx → EReal) i := by
  obtain ⟨-, -, -, -, -, -, e0, e1, -⟩ := idx_facts t
  unfold Mlp.iblk0
  rw [View.read_apply]
  show V c main_v1 _ = V c main_v1 _
  congr 1
  funext a
  apply Fin.ext
  have hr := r.isLt
  match a with
  | ⟨0, _⟩ => show win0_3.index t (0 : Fin 2) * 128 + 1 * r.val = (i 0).val; rw [e0, hi0]; omega
  | ⟨1, _⟩ => show win0_3.index t (1 : Fin 2) * 40000 + 1 * s.val = (i 1).val; rw [e1, hi1]; omega

/-- The second bias row's block is the whole array. -/
theorem blk4_apply (c : Dev nD) (t : Fin cfg0.N) (r : Fin 1) (s : Fin 40000) (i : S1x40000.Idx)
    (hi0 : (i 0).val = 0) (hi1 : (i 1).val = s.val) :
    (Mlp.iblk0 V c 4 t : Vec Ideal S1x40000 .f32) (ix2 r s) = (V c main_v3 : S1x40000.Idx → EReal) i := by
  obtain ⟨-, -, -, -, -, -, -, -, e0, e1, -⟩ := idx_facts t
  unfold Mlp.iblk0
  rw [View.read_apply]
  show V c main_v3 _ = V c main_v3 _
  congr 1
  funext a
  apply Fin.ext
  have hr := r.isLt
  match a with
  | ⟨0, _⟩ => show win0_4.index t (0 : Fin 2) * 1 + 1 * r.val = (i 0).val; rw [e0, hi0]; omega
  | ⟨1, _⟩ => show win0_4.index t (1 : Fin 2) * 40000 + 1 * s.val = (i 1).val; rw [e1, hi1]; omega

/-! ## The output block -/

/-- An entry of the output block sits in the output array at the same coordinates. -/
theorem emb5 (t : Fin cfg0.N) (p : Fin 8) (q : Fin 40000) :
    (((cfg0.win 5).blk t).view.emb (ix2 p q) : S8x40000.Idx) = ix2 p q := by
  obtain ⟨-, -, -, -, -, -, -, -, -, -, e0, e1⟩ := idx_facts t
  funext a
  apply Fin.ext
  match a with
  | ⟨0, _⟩ => show win0_5.index t (0 : Fin 2) * 8 + 1 * p.val = p.val; rw [e0]; omega
  | ⟨1, _⟩ => show win0_5.index t (1 : Fin 2) * 40000 + 1 * q.val = q.val; rw [e1]; omega

/-- An entry of the array is in point t's output block iff each coordinate is in the block's range on its axis. -/
theorem mem_blk5 (t : Fin cfg0.N) (i : S8x40000.Idx) :
    i ∈ ((cfg0.win 5).blk t).view.set ↔ ∀ a : Fin 2, win0_5.index t a * S8x40000.size a ≤ (i a).val
      ∧ (i a).val < win0_5.index t a * S8x40000.size a + S8x40000.size a := by
  show i ∈ ((View.whole main_v4).slice (win0_5.rect t)).set ↔ _
  rw [View.set_slice_whole, Rect.mem_set_unit]
  exact Iff.rfl

/-- Every entry of the output array is in the block the last point writes back. -/
theorem cover5 (i : S8x40000.Idx) :
    ∃ t : Fin cfg0.N, (cfg0.win 5).flush t = true ∧ i ∈ ((cfg0.win 5).blk t).view.set := by
  have hi0 : (i 0).val < 8 := (i 0).isLt
  have hi1 : (i 1).val < 40000 := (i 1).isLt
  obtain ⟨t, ht⟩ : ∃ t : Fin cfg0.N, t.val = 7 := ⟨⟨7, by rw [show cfg0.N = 8 from N_0]; omega⟩, rfl⟩
  obtain ⟨-, -, -, -, -, -, -, -, -, -, e0, e1⟩ := idx_facts t
  refine ⟨t, (flush0_5 t).mpr (by rw [ht]), ?_⟩
  rw [mem_blk5]
  intro a
  match a with
  | ⟨0, _⟩ => show win0_5.index t (0 : Fin 2) * 8 ≤ (i 0).val ∧ (i 0).val < win0_5.index t (0 : Fin 2) * 8 + 8; rw [e0]; omega
  | ⟨1, _⟩ => show win0_5.index t (1 : Fin 2) * 40000 ≤ (i 1).val ∧ (i 1).val < win0_5.index t (1 : Fin 2) * 40000 + 40000; rw [e1]; omega

end Cert.KernelIdeal.MlpValue

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibRowSpread.lean ====
/-
  A vector spread over the rows of a matrix, read at an entry (general in the sizes and the element type).

  A vector `[n]` recast as the one-row matrix `[1, n]` keeps its entries (`asRow_apply`), and the one-row matrix
  broadcast to `[m, n]` has that row in every row (`spreadRows_apply`); together, the entry `(p, q)` of the
  spread vector is the vector's entry `q` (`spread_asRow_apply`). This is what adding a per-column bias to every row
  of a matrix prints in a kernel.
-/
import Idealize.ShloMosaic.Lib.ValueIdx
import Idealize.ShloMosaic.Lib.Pipeline.Value

namespace Cert.Lib.RowSpread

open Idealize.ShloMosaic Idealize.ShloMosaic.ValueIdx

variable {m n : ℕ} {α : Type}

/-- The vector as a one-row matrix: the entry `(0, q)` is the vector's entry `q`. -/
theorem asRow_apply (v : (⟨1, ![n]⟩ : Shape).Idx → α) (h : (⟨1, ![n]⟩ : Shape).ShapeCasts (⟨2, ![1, n]⟩ : Shape))
    (z : Fin 1) (q : Fin n) : shapeCast (⟨2, ![1, n]⟩ : Shape) v h (ix2 z q) = v (ix1 q) := by
  refine shapeCast_apply v h _ _ ?_
  rw [Shape.rowMajor_val_one, Shape.rowMajor_val_two]
  obtain rfl : z = 0 := Subsingleton.elim _ _
  show q.val = 0 * n + q.val
  rw [Nat.zero_mul, Nat.zero_add]

/-- The one-row matrix broadcast down `m` rows: the entry `(p, q)` is the row's entry `q`. -/
theorem spreadRows_apply (x : (⟨2, ![1, n]⟩ : Shape).Idx → α) (h : (⟨2, ![1, n]⟩ : Shape).Broadcasts (⟨2, ![m, n]⟩ : Shape))
    (p : Fin m) (q : Fin n) : broadcastTo (⟨2, ![m, n]⟩ : Shape) x h (ix2 p q) = x (ix2 (0 : Fin 1) q) := by
  refine broadcastTo_apply x h _ _ fun a => ?_
  match a with
  | ⟨0, _⟩ => exact (if_pos rfl).symm
  | ⟨1, _⟩ =>
    show q.val = if n = 1 then 0 else q.val
    by_cases hn : n = 1
    · rw [if_pos hn]; have := q.isLt; omega
    · rw [if_neg hn]

/-- The vector spread over the rows: the entry `(p, q)` is the vector's entry `q`. -/
theorem spread_asRow_apply (v : (⟨1, ![n]⟩ : Shape).Idx → α) (h : (⟨1, ![n]⟩ : Shape).ShapeCasts (⟨2, ![1, n]⟩ : Shape))
    (hb : (⟨2, ![1, n]⟩ : Shape).Broadcasts (⟨2, ![m, n]⟩ : Shape)) (p : Fin m) (q : Fin n) :
    broadcastTo (⟨2, ![m, n]⟩ : Shape) (shapeCast (⟨2, ![1, n]⟩ : Shape) v h) hb (ix2 p q) = v (ix1 q) :=
  (spreadRows_apply _ hb p q).trans (asRow_apply v h 0 q)

end Cert.Lib.RowSpread
-- ==== Proof.KI.MlpPayload.lean ====
/-
  The first region's arithmetic at an entry, at the ideal values.

  The body's three stored values as pure functions of what it loaded: the reset value (zero everywhere); the updated
  accumulator — entry `(p, q)` is the old entry plus `∑ j < 128, leaky (∑ k < 256, loc[p, k] · W1blk[k, j] + b1blk[j]) · W2blk[j, q]`,
  both matrix products going into a zero accumulator and the changes of float format being the identity —; and the emitted
  value, the accumulator plus the second bias spread over the 8 rows.
-/
import proofs.«163258_j32710470926816_1_alg».proof.Proof.Gen.KernelIdeal.Skeleton
import proofs.«163258_j32710470926816_1_alg».proof.Proof.Spec
import proofs.«163258_j32710470926816_1_alg».proof.Proof.LibPlainDot
import proofs.«163258_j32710470926816_1_alg».proof.Proof.LibRowSpread
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.MlpPayload

open Cert.KernelIdeal Cert.KernelIdeal.Gen
open Idealize.ShloMosaic Idealize.ShloMosaic.ValueIdx Idealize.ShloMosaic.PlainDot

/-- The first layer's product has the plain dimension numbers. -/
theorem plain1 : IsPlain dot_S8x256_S256x128_S8x128_1_0_0_1_n_n := ⟨rfl, rfl, rfl, rfl, rfl, rfl⟩
/-- So has the second layer's. -/
theorem plain2 : IsPlain dot_S8x128_S128x40000_S8x40000_1_0_0_1_n_n := ⟨rfl, rfl, rfl, rfl, rfl, rfl⟩

/-- The first layer's product into the zero accumulator plus the bias row spread over the 8 rows, at `(p, j)`. -/
theorem pre_apply (l : FVec Ideal S8x256 .bf16) (r : FVec Ideal S256x128 .bf16) (bias : FVec Ideal S1x128 .f32) (p : Fin 8) (j : Fin 128) :
    addf (matmul dot_S8x256_S256x128_S8x128_1_0_0_1_n_n none l r (constant S8x128 .f32 0x00000000#32))
        (broadcastTo S8x128 bias broadcasts_S1x128_S8x128) (ix2 p j)
      = (∑ k : Fin 256, l (ix2 p k) * r (ix2 k j)) + bias (ix2 (0 : Fin 1) j) := by
  refine (addf_apply _ _ _).trans ?_
  refine congrArg₂ (· + ·) ?_ ?_
  · exact (Ideal.matmul_constant_zero_apply (φ₁ := .bf16) (φ₂ := .bf16) _ none l r (ix2 p j)).trans (sum_contr plain1 l r p j)
  · exact Cert.Lib.RowSpread.spreadRows_apply bias _ p j

/-- The leaky rectifier as the body selects it, at an entry whose pre-activation is `z`. -/
theorem leaky_apply (v : FVec Ideal S8x128 .f32) (p : Fin 8) (j : Fin 128) (z : EReal) (h : v (ix2 p j) = z) :
    select (cmpf .oge v (broadcast S8x128 (Scalar.ofBits (F := Ideal) .f32 0x00000000#32))) v
        (mulf (broadcast S8x128 (Scalar.ofBits (F := Ideal) .f32 0x3DCCCCCD#32)) v) (ix2 p j)
      = Cert.Spec.leaky z := by
  subst h
  rfl

/-- The second layer's product into the zero accumulator, at `(p, q)`. -/
theorem prod_apply (l : FVec Ideal S8x128 .bf16) (r : FVec Ideal S128x40000 .bf16) (p : Fin 8) (q : Fin 40000) :
    matmul dot_S8x128_S128x40000_S8x40000_1_0_0_1_n_n none l r (constant S8x40000 .f32 0x00000000#32) (ix2 p q)
      = ∑ j : Fin 128, l (ix2 p j) * r (ix2 j q) :=
  (Ideal.matmul_constant_zero_apply (φ₁ := .bf16) (φ₂ := .bf16) _ none l r (ix2 p q)).trans (sum_contr plain2 l r p q)

/-- The reset value is zero. -/
theorem pay1_apply (p : Fin 8) (q : Fin 40000) : k0_pay1 (F := Ideal) (ix2 p q) = 0 := by
  unfold k0_pay1
  refine (congrFun (shapeCast_self _ _) _).trans ?_
  exact Ideal.ofBits_zero_f32

/-- The updated accumulator. -/
theorem pay2_apply (x0 : Vec Ideal S8x256 .f32) (x1 : Vec Ideal S256x128 .bf16) (x2 : Vec Ideal S1x128 .f32) (x3 : Vec Ideal S128x40000 .bf16)
    (acc : Vec Ideal S8x40000 .f32) (p : Fin 8) (q : Fin 40000) :
    k0_pay2 x0 x1 x2 x3 acc (ix2 p q)
      = acc (ix2 p q) + ∑ j : Fin 128, Cert.Spec.leaky ((∑ k : Fin 256, x0 (ix2 p k) * x1 (ix2 k j)) + x2 (ix2 (0 : Fin 1) j)) * x3 (ix2 j q) := by
  unfold k0_pay2
  refine (congrFun (shapeCast_self _ _) _).trans ?_
  refine (addf_apply _ _ _).trans ?_
  refine congrArg (acc (ix2 p q) + ·) ?_
  refine (prod_apply _ _ p q).trans ?_
  refine Finset.sum_congr rfl fun j _ => ?_
  refine congrArg₂ (· * ·) ?_ (congrFun (shapeCast_self _ _) _)
  refine (truncf_apply (φ := .f32) (ψ := .bf16) _ bitsLt_bf16_f32 (ix2 p j)).trans ?_
  refine leaky_apply _ p j _ ?_
  refine (pre_apply _ _ _ p j).trans ?_
  refine congrArg₂ (· + ·) (Finset.sum_congr rfl fun k _ => ?_) (congrFun (shapeCast_self _ _) _)
  exact congrArg₂ (· * ·) (truncf_apply (φ := .f32) (ψ := .bf16) x0 bitsLt_bf16_f32 (ix2 p k)) (congrFun (shapeCast_self _ _) _)

/-- The emitted value. -/
theorem pay3_apply (a : Vec Ideal S8x40000 .f32) (x4 : Vec Ideal S1x40000 .f32) (p : Fin 8) (q : Fin 40000) :
    k0_pay3 a x4 (ix2 p q) = a (ix2 p q) + x4 (ix2 (0 : Fin 1) q) := by
  unfold k0_pay3
  refine (addf_apply _ _ _).trans ?_
  refine congrArg (a (ix2 p q) + ·) ?_
  refine (Cert.Lib.RowSpread.spreadRows_apply _ _ p q).trans ?_
  exact congrFun (shapeCast_self _ _) _

end Cert.KernelIdeal.MlpPayload

end
-- ==== Proof.LibPartialSum.lean ====
/-
  Partial sums over the first positions of a finite range.

  `upto n k` is the set of positions `b : Fin n` with `b ≤ k`. In any commutative additive monoid the sum over
  `upto n 0` is the summand at position `0`, passing from `k` to `k + 1` adds the summand at position `k + 1`, and
  once `k` reaches the last position the sum is the sum over all positions. This is what an accumulator that adds one
  term per step holds after each step, stated without reference to any order of evaluation.
-/
import Mathlib.Algebra.BigOperators.Fin

open scoped BigOperators

namespace Cert.Lib.PartialSum

variable {M : Type*} [AddCommMonoid M] {n : ℕ}

/-- The positions up to and including `k`. -/
def upto (n k : ℕ) : Finset (Fin n) := Finset.univ.filter fun b => b.val ≤ k

theorem mem_upto {k : ℕ} {b : Fin n} : b ∈ upto n k ↔ b.val ≤ k := by
  simp [upto]

/-- Up to position `0` there is one summand. -/
theorem sum_upto_zero (hn : 0 < n) (g : Fin n → M) : ∑ b ∈ upto n 0, g b = g ⟨0, hn⟩ := by
  have : upto n 0 = {⟨0, hn⟩} := by
    ext b
    rw [mem_upto, Finset.mem_singleton]
    exact ⟨fun h => Fin.ext (Nat.le_zero.mp h), fun h => by rw [h]⟩
  rw [this, Finset.sum_singleton]

/-- One more position adds its summand. -/
theorem sum_upto_succ (k : ℕ) (hk : k + 1 < n) (g : Fin n → M) :
    ∑ b ∈ upto n (k + 1), g b = ∑ b ∈ upto n k, g b + g ⟨k + 1, hk⟩ := by
  have hins : upto n (k + 1) = insert ⟨k + 1, hk⟩ (upto n k) := by
    ext b
    rw [Finset.mem_insert, mem_upto, mem_upto]
    constructor
    · intro h
      rcases Nat.lt_or_ge b.val (k + 1) with h' | h'
      · exact Or.inr (Nat.lt_succ_iff.mp h')
      · exact Or.inl (Fin.ext (Nat.le_antisymm h h'))
    · rintro (h | h)
      · rw [h]
      · exact Nat.le_succ_of_le h
  have hnot : (⟨k + 1, hk⟩ : Fin n) ∉ upto n k := by
    rw [mem_upto]; exact Nat.not_succ_le_self k
  rw [hins, Finset.sum_insert hnot, add_comm]

/-- Up to the last position the sum is the whole sum. -/
theorem sum_upto_last (k : ℕ) (hk : n ≤ k + 1) (g : Fin n → M) : ∑ b ∈ upto n k, g b = ∑ b, g b := by
  have : upto n k = Finset.univ := by
    ext b
    rw [mem_upto]
    exact ⟨fun _ => Finset.mem_univ _, fun _ => Nat.lt_succ_iff.mp (Nat.lt_of_lt_of_le b.isLt hk)⟩
  rw [this]

end Cert.Lib.PartialSum
-- ==== Proof.LibRunningSum.lean ====
/-
  An accumulator that adds one term per step holds, after each step, the sum of the terms so far.

  Let `a n` be the contents after step `n` of a run of `N` steps, and `g b` the term step `b` adds. If the first step
  leaves `g 0` and every later step leaves what was there plus its own term, then `a n` is the sum of `g` over the
  steps up to `n`: by induction on `n`. Stated over any commutative additive monoid and any length `N`, so that it is
  used at a grid's size without that size ever being computed.
-/
import proofs.«163258_j32710470926816_1_alg».proof.Proof.LibPartialSum

open scoped BigOperators

namespace Cert.Lib.RunningSum

open Cert.Lib.PartialSum

variable {M : Type*} [AddCommMonoid M] {N : ℕ}

theorem eq_sum_upto (a : (n : ℕ) → n < N → M) (g : Fin N → M) (h0 : ∀ h : 0 < N, a 0 h = g ⟨0, h⟩)
    (hs : ∀ (n : ℕ) (h : n + 1 < N), a (n + 1) h = a n (Nat.lt_of_succ_lt h) + g ⟨n + 1, h⟩) :
    ∀ (n : ℕ) (h : n < N), a n h = ∑ b ∈ upto N n, g b
  | 0, h => by rw [sum_upto_zero h, h0 h]
  | n + 1, h => by rw [sum_upto_succ n h, hs n h, eq_sum_upto a g h0 hs n (Nat.lt_of_succ_lt h)]

end Cert.Lib.RunningSum
-- ==== Proof.LibBlockSum.lean ====
/-
  A finite sum taken block by block.

  `N = a * b` positions are cut into `a` consecutive blocks of `b` positions each: position `q` of block `t` is
  position `t * b + q` (`blockRow`). In any commutative additive monoid the sum of a function over all `N` positions is
  the sum, over the blocks, of its sums over each block's positions (`sum_fin_blocks`): the bijection
  `Fin a × Fin b ≃ Fin (a * b)`, `(t, q) ↦ q + b * t`. Applied twice it cuts the rows of a row-major matrix into row
  blocks and each row into its entries. Nothing is asked of the summands: on the extended reals, whose addition is
  commutative and associative at the infinities too, this re-groups a sum of any values. Generic in the sizes and in the
  monoid. Last, a reshape re-arranges a vector's entries bijectively, so it does not change their sum (`sum_shapeCast`).
-/
import Idealize.ShloMosaic.Lib.ValueIdx
import Mathlib.Algebra.BigOperators.Fin
import Mathlib.Logic.Equiv.Fin.Basic

open scoped BigOperators

namespace Cert.Lib.BlockSum

open Idealize.ShloMosaic Idealize.ShloMosaic.ValueIdx

/-- Row `q` of row block `t`, among the `N = a * b` rows: row `t * b + q`. -/
def blockRow {N a b : ℕ} (hN : N = a * b) (t : Fin a) (q : Fin b) : Fin N :=
  ⟨t.val * b + q.val, by
    subst hN
    calc t.val * b + q.val < t.val * b + b := Nat.add_lt_add_left q.isLt _
      _ = (t.val + 1) * b := (Nat.succ_mul _ _).symm
      _ ≤ a * b := Nat.mul_le_mul_right _ t.isLt⟩

@[simp] theorem blockRow_val {N a b : ℕ} (hN : N = a * b) (t : Fin a) (q : Fin b) :
    (blockRow hN t q).val = t.val * b + q.val := rfl

/-- A sum over `a * b` positions is the sum over the `a` blocks of the sums over each block's `b` positions. -/
theorem sum_fin_blocks {M : Type*} [AddCommMonoid M] {N a b : ℕ} (hN : N = a * b) (f : Fin N → M) :
    ∑ r, f r = ∑ t : Fin a, ∑ q : Fin b, f (blockRow hN t q) := by
  subst hN
  rw [← Equiv.sum_comp finProdFinEquiv f, Fintype.sum_prod_type]
  refine Finset.sum_congr rfl fun t _ => Finset.sum_congr rfl fun q _ => congrArg f (Fin.ext ?_)
  show q.val + b * t.val = t.val * b + q.val
  rw [Nat.mul_comm, Nat.add_comm]

/-- A reshape only re-arranges: the sum over a reshaped vector's entries is the sum over the vector's entries (each entry of
    the result is the operand's entry at the same row-major position, a bijection of the two index sets). -/
theorem sum_shapeCast {M : Type} [AddCommMonoid M] {s t : Shape} (x : s.Idx → M) (h : s.ShapeCasts t) :
    ∑ j, shapeCast t x h j = ∑ k, x k := by
  unfold shapeCast
  exact Equiv.sum_comp (Shape.reshapeEquiv h) x

end Cert.Lib.BlockSum
-- ==== Proof.KI.MlpValue.lean ====
/-
  The first kernel region's output array as one function of its five input arrays.

  The region's grid has 8 points; point t works on the hidden units 128 t … 128 t + 127. With hidden[p, j] =
  leaky (∑ k, loc[p, k] · W1[k, j] + b1[j]), the point adds to the accumulator, at entry (p, n), the partial product
  ∑_{j < 128} hidden[p, 128 t + j] · W2[128 t + j, n]; the first point starts from the zero block. So after point t the
  accumulator holds, at (p, n), the sum of the partial products of the points up to t, and after the last point the sum
  over all 8 blocks of 128 units, which is the sum over the 1024 units taken block by block. The last point stores the
  accumulator plus the second bias into the output block, the only block ever written back, and that block is the whole
  output array: it ends at weight[p, n] = ∑_j hidden[p, j] · W2[j, n] + b2[n].
-/
import proofs.«163258_j32710470926816_1_alg».proof.Proof.KI.MlpPieces
import proofs.«163258_j32710470926816_1_alg».proof.Proof.KI.MlpBlocks
import proofs.«163258_j32710470926816_1_alg».proof.Proof.KI.MlpPayload
import proofs.«163258_j32710470926816_1_alg».proof.Proof.Spec
import proofs.«163258_j32710470926816_1_alg».proof.Proof.LibRunningSum
import proofs.«163258_j32710470926816_1_alg».proof.Proof.LibBlockSum
import Idealize.ShloMosaic.Lib.Pipeline.Value
import Idealize.ShloMosaic.Lib.ValueIdx
import Idealize.ShloMosaic.PureOps.Ideal.Laws

set_option maxRecDepth 16384

noncomputable section

namespace Cert.KernelIdeal.MlpValue

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat)
open scoped BigOperators
open Cert.Spec (hidden weight leaky)

variable (V : (c : Dev nD) → (b : Ref sig .tc) → Buf (Elt Ideal) ((c : Thread nD τ).loc b))

/-! ## What each point leaves, over the point's blocks -/

/-- The five input blocks of point t, each at its literal type. -/
abbrev locblk (c : Dev nD) (t : Fin cfg0.N) : Vec Ideal S8x256 .f32 := Mlp.iblk0 V c 0 t
abbrev w1blk (c : Dev nD) (t : Fin cfg0.N) : Vec Ideal S256x128 .bf16 := Mlp.iblk0 V c 1 t
abbrev b1blk (c : Dev nD) (t : Fin cfg0.N) : Vec Ideal S1x128 .f32 := Mlp.iblk0 V c 2 t
abbrev w2blk (c : Dev nD) (t : Fin cfg0.N) : Vec Ideal S128x40000 .bf16 := Mlp.iblk0 V c 3 t
abbrev b2blk (c : Dev nD) (t : Fin cfg0.N) : Vec Ideal S1x40000 .f32 := Mlp.iblk0 V c 4 t

/-- After the first point the accumulator holds the update of the zero block. -/
theorem snd_first (c : Dev nD) (t : Fin cfg0.N) (h0 : t.val % 8 = 0) :
    (Mlp.outsAt0 V c t.val t.isLt).2
      = k0_pay2 (locblk V c t) (w1blk V c t) (b1blk V c t) (w2blk V c t) (k0_pay1 (F := Ideal)) := by
  have h1 : ¬t.val % 8 = 7 := by omega
  rw [Mlp.outsAt0_A V c t h0 h1]
  dsimp only
  exact piece_A (F := Ideal) c (grid0.coords t) (Mlp.ms0_0 t) (Mlp.hs0_0 t) (Mlp.ms0_1 t) (Mlp.hs0_1 t) (Mlp.ms0_2 t) (Mlp.hs0_2 t) (Mlp.ms0_3 t) (Mlp.hs0_3 t) (Mlp.ms0_4 t) (Mlp.hs0_4 t) (Mlp.ms0_5 t) (Mlp.hs0_5 t) Mlp.scM0 (Memref.isWhole_whole _) ((Mlp.hcond0_0 t).mpr h0) (fun h => h1 ((Mlp.hcond0_1 t).mp h)) (Mlp.iblk0 V c 0 t) (Mlp.iblk0 V c 1 t) (Mlp.iblk0 V c 2 t) (Mlp.iblk0 V c 3 t) (Mlp.iblk0 V c 4 t)

/-- After any later point it holds the update of what the point before left. -/
theorem snd_next (c : Dev nD) (t : Fin cfg0.N) (h0 : ¬t.val % 8 = 0) :
    (Mlp.outsAt0 V c t.val t.isLt).2
      = k0_pay2 (locblk V c t) (w1blk V c t) (b1blk V c t) (w2blk V c t) (Mlp.outsAt0 V c (t.val - 1) (Nat.lt_of_le_of_lt (Nat.sub_le _ _) t.isLt)).2 := by
  by_cases h1 : t.val % 8 = 7
  · rw [Mlp.outsAt0_C V c t h0 h1]
    dsimp only
    exact piece_C (F := Ideal) c (grid0.coords t) (Mlp.ms0_0 t) (Mlp.hs0_0 t) (Mlp.ms0_1 t) (Mlp.hs0_1 t) (Mlp.ms0_2 t) (Mlp.hs0_2 t) (Mlp.ms0_3 t) (Mlp.hs0_3 t) (Mlp.ms0_4 t) (Mlp.hs0_4 t) (Mlp.ms0_5 t) (Mlp.hs0_5 t) Mlp.scM0 (Memref.isWhole_whole _) (fun h => h0 ((Mlp.hcond0_0 t).mp h)) ((Mlp.hcond0_1 t).mpr h1) (Mlp.iblk0 V c 0 t) (Mlp.iblk0 V c 1 t) (Mlp.iblk0 V c 2 t) (Mlp.iblk0 V c 3 t) (Mlp.iblk0 V c 4 t) (Mlp.outsAt0 V c (t.val - 1) (Nat.lt_of_le_of_lt (Nat.sub_le _ _) t.isLt)).2
  · rw [Mlp.outsAt0_B V c t h0 h1]
    dsimp only
    exact piece_B (F := Ideal) c (grid0.coords t) (Mlp.ms0_0 t) (Mlp.hs0_0 t) (Mlp.ms0_1 t) (Mlp.hs0_1 t) (Mlp.ms0_2 t) (Mlp.hs0_2 t) (Mlp.ms0_3 t) (Mlp.hs0_3 t) (Mlp.ms0_4 t) (Mlp.hs0_4 t) (Mlp.ms0_5 t) (Mlp.hs0_5 t) Mlp.scM0 (Memref.isWhole_whole _) (fun h => h0 ((Mlp.hcond0_0 t).mp h)) (fun h => h1 ((Mlp.hcond0_1 t).mp h)) (Mlp.iblk0 V c 0 t) (Mlp.iblk0 V c 1 t) (Mlp.iblk0 V c 2 t) (Mlp.iblk0 V c 3 t) (Mlp.iblk0 V c 4 t) (Mlp.outsAt0 V c (t.val - 1) (Nat.lt_of_le_of_lt (Nat.sub_le _ _) t.isLt)).2

/-- At the last point the output block holds the accumulator plus the second bias row spread over the rows. -/
theorem fst_last (c : Dev nD) (t : Fin cfg0.N) (h1 : t.val % 8 = 7) :
    (Mlp.outsAt0 V c t.val t.isLt).1 = k0_pay3 (Mlp.outsAt0 V c t.val t.isLt).2 (b2blk V c t) := by
  have h0 : ¬t.val % 8 = 0 := by omega
  rw [Mlp.outsAt0_C V c t h0 h1]
  dsimp only
  rw [piece_C (F := Ideal) c (grid0.coords t) (Mlp.ms0_0 t) (Mlp.hs0_0 t) (Mlp.ms0_1 t) (Mlp.hs0_1 t) (Mlp.ms0_2 t) (Mlp.hs0_2 t) (Mlp.ms0_3 t) (Mlp.hs0_3 t) (Mlp.ms0_4 t) (Mlp.hs0_4 t) (Mlp.ms0_5 t) (Mlp.hs0_5 t) Mlp.scM0 (Memref.isWhole_whole _) (fun h => h0 ((Mlp.hcond0_0 t).mp h)) ((Mlp.hcond0_1 t).mpr h1) (Mlp.iblk0 V c 0 t) (Mlp.iblk0 V c 1 t) (Mlp.iblk0 V c 2 t) (Mlp.iblk0 V c 3 t) (Mlp.iblk0 V c 4 t) (Mlp.outsAt0 V c (t.val - 1) (Nat.lt_of_le_of_lt (Nat.sub_le _ _) t.isLt)).2]
  exact piece_C_5 (F := Ideal) c (grid0.coords t) (Mlp.ms0_0 t) (Mlp.hs0_0 t) (Mlp.ms0_1 t) (Mlp.hs0_1 t) (Mlp.ms0_2 t) (Mlp.hs0_2 t) (Mlp.ms0_3 t) (Mlp.hs0_3 t) (Mlp.ms0_4 t) (Mlp.hs0_4 t) (Mlp.ms0_5 t) (Mlp.hs0_5 t) Mlp.scM0 (Memref.isWhole_whole _) (fun h => h0 ((Mlp.hcond0_0 t).mp h)) ((Mlp.hcond0_1 t).mpr h1) (Mlp.iblk0 V c 0 t) (Mlp.iblk0 V c 1 t) (Mlp.iblk0 V c 2 t) (Mlp.iblk0 V c 3 t) (Mlp.iblk0 V c 4 t) (Mlp.outsAt0 V c (t.val - 1) (Nat.lt_of_le_of_lt (Nat.sub_le _ _) t.isLt)).2

/-! ## One point's partial product -/

/-- Hidden unit j of the block of point t: unit 128 t + j. -/
def hrow (t : Fin cfg0.N) (j : Fin 128) : Fin 1024 :=
  ⟨128 * t.val + j.val, by have := Mlp.lt8 t.isLt; have := j.isLt; omega⟩

@[simp] theorem hrow_val (t : Fin cfg0.N) (j : Fin 128) : (hrow t j).val = 128 * t.val + j.val := rfl

/-- What point t adds at entry (p, n): the product of its 128 hidden units with their rows of the second matrix. -/
def term (loc : S8x256.Idx → EReal) (w1 : S256x1024.Idx → EReal) (b1 : S1024.Idx → EReal) (w2 : S1024x40000.Idx → EReal)
    (p : Fin 8) (n : Fin 40000) (t : Fin cfg0.N) : EReal :=
  ∑ j : Fin 128, hidden loc w1 b1 p (hrow t j) * w2 (ix2 (hrow t j) n)

section Entry

variable (c : Dev nD) (loc : S8x256.Idx → EReal) (w1 : S256x1024.Idx → EReal) (b1 : S1024.Idx → EReal) (w2 : S1024x40000.Idx → EReal) (b2 : S40000.Idx → EReal)
    (hloc : (V c main_arg1 : S8x256.Idx → EReal) = loc) (hw1 : (V c main_v0 : S256x1024.Idx → EReal) = w1)
    (hb1 : ∀ j : Fin 1024, (V c main_v2 : S1x1024.Idx → EReal) (ix2 (0 : Fin 1) j) = b1 (ix1 j))
    (hw2 : (V c main_v1 : S1024x40000.Idx → EReal) = w2)
    (hb2 : ∀ n : Fin 40000, (V c main_v3 : S1x40000.Idx → EReal) (ix2 (0 : Fin 1) n) = b2 (ix1 n))
include hloc hw1 hb1 hw2

/-- The update at an entry: what was there plus the point's partial product. -/
theorem step_apply (t : Fin cfg0.N) (acc : Vec Ideal S8x40000 .f32) (p : Fin 8) (n : Fin 40000) :
    k0_pay2 (locblk V c t) (w1blk V c t) (b1blk V c t) (w2blk V c t) acc (ix2 p n)
      = acc (ix2 p n) + term loc w1 b1 w2 p n t := by
  refine (MlpPayload.pay2_apply (locblk V c t) (w1blk V c t) (b1blk V c t) (w2blk V c t) acc p n).trans ?_
  refine congrArg (fun y => acc (ix2 p n) + y) ?_
  refine Finset.sum_congr rfl fun j _ => ?_
  have h3 : w2blk V c t (ix2 j n) = w2 (ix2 (hrow t j) n) :=
    (blk3_apply V c t j n (ix2 (hrow t j) n) rfl rfl).trans (congrFun hw2 _)
  have h2 : b1blk V c t (ix2 (0 : Fin 1) j) = b1 (ix1 (hrow t j)) :=
    (blk2_apply V c t 0 j (ix2 (0 : Fin 1) (hrow t j)) rfl rfl).trans (hb1 (hrow t j))
  have h0 : ∀ k : Fin 256, locblk V c t (ix2 p k) = loc (ix2 p k) := fun k =>
    (blk0_apply V c t p k (ix2 p k) rfl rfl).trans (congrFun hloc _)
  have h1 : ∀ k : Fin 256, w1blk V c t (ix2 k j) = w1 (ix2 k (hrow t j)) := fun k =>
    (blk1_apply V c t k j (ix2 k (hrow t j)) rfl rfl).trans (congrFun hw1 _)
  unfold Cert.Spec.hidden
  exact congrArg₂ (fun (a b : EReal) => a * b)
    (congrArg leaky (congrArg₂ (fun (a b : EReal) => a + b)
      (Finset.sum_congr rfl fun k _ => congrArg₂ (fun (a b : EReal) => a * b) (h0 k) (h1 k)) h2)) h3

/-- After the first point the accumulator holds that point's partial product. -/
theorem acc_first (t : Fin cfg0.N) (h0 : t.val % 8 = 0) (p : Fin 8) (n : Fin 40000) :
    (Mlp.outsAt0 V c t.val t.isLt).2 (ix2 p n) = term loc w1 b1 w2 p n t := by
  rw [snd_first V c t h0]
  refine (step_apply V c loc w1 b1 w2 hloc hw1 hb1 hw2 t (k0_pay1 (F := Ideal)) p n).trans ?_
  rw [MlpPayload.pay1_apply p n, zero_add]

/-- After any later point it holds what the point before left plus this point's partial product. -/
theorem acc_next (t : Fin cfg0.N) (h0 : ¬t.val % 8 = 0) (p : Fin 8) (n : Fin 40000) :
    (Mlp.outsAt0 V c t.val t.isLt).2 (ix2 p n)
      = (Mlp.outsAt0 V c (t.val - 1) (Nat.lt_of_le_of_lt (Nat.sub_le _ _) t.isLt)).2 (ix2 p n) + term loc w1 b1 w2 p n t := by
  rw [snd_next V c t h0]
  exact step_apply V c loc w1 b1 w2 hloc hw1 hb1 hw2 t _ p n

/-- So after point k it holds the partial products of the points up to k, summed. -/
theorem acc_eq (p : Fin 8) (n : Fin 40000) (k : ℕ) (h : k < cfg0.N) :
    (Mlp.outsAt0 V c k h).2 (ix2 p n) = ∑ b ∈ Cert.Lib.PartialSum.upto cfg0.N k, term loc w1 b1 w2 p n b :=
  Cert.Lib.RunningSum.eq_sum_upto (fun k hk => (Mlp.outsAt0 V c k hk).2 (ix2 p n)) (term loc w1 b1 w2 p n)
    (fun h => acc_first V c loc w1 b1 w2 hloc hw1 hb1 hw2 ⟨0, h⟩ rfl p n)
    (fun k h => acc_next V c loc w1 b1 w2 hloc hw1 hb1 hw2 ⟨k + 1, h⟩
      (by have := Mlp.lt8 h; show ¬(k + 1) % 8 = 0; omega) p n) k h

omit hloc hw1 hb1 hw2 in
/-- The 8 points' partial products sum to the product over all 1024 hidden units, taken block by block. -/
theorem sum_terms (p : Fin 8) (n : Fin 40000) :
    ∑ t : Fin cfg0.N, term loc w1 b1 w2 p n t = ∑ j : Fin 1024, hidden loc w1 b1 p j * w2 (ix2 j n) := by
  have hN : (1024 : ℕ) = 8 * 128 := by norm_num
  have h8 : cfg0.N = 8 := N_0
  refine Eq.trans ?_ (Cert.Lib.BlockSum.sum_fin_blocks hN (fun j : Fin 1024 => hidden loc w1 b1 p j * w2 (ix2 j n))).symm
  refine Eq.trans ?_ (Equiv.sum_comp (finCongr h8)
    (fun t' : Fin 8 => ∑ j : Fin 128, (fun j : Fin 1024 => hidden loc w1 b1 p j * w2 (ix2 j n)) (Cert.Lib.BlockSum.blockRow hN t' j)))
  refine Finset.sum_congr rfl fun t _ => Finset.sum_congr rfl fun j _ => ?_
  have e : hrow t j = Cert.Lib.BlockSum.blockRow hN (finCongr h8 t) j :=
    Fin.ext (by
      rw [Cert.Lib.BlockSum.blockRow_val, hrow_val, show (finCongr h8 t).val = t.val from rfl]
      exact Nat.add_right_cancel_iff.mpr (Nat.mul_comm _ _))
  show hidden loc w1 b1 p (hrow t j) * w2 (ix2 (hrow t j) n) = _
  rw [e]

/-- After the last point the accumulator holds the whole product. -/
theorem acc_last (t : Fin cfg0.N) (h1 : t.val % 8 = 7) (p : Fin 8) (n : Fin 40000) :
    (Mlp.outsAt0 V c t.val t.isLt).2 (ix2 p n) = ∑ j : Fin 1024, hidden loc w1 b1 p j * w2 (ix2 j n) := by
  have h8 : cfg0.N = 8 := N_0
  have hlt := t.isLt
  rw [acc_eq V c loc w1 b1 w2 hloc hw1 hb1 hw2 p n t.val t.isLt,
    Cert.Lib.PartialSum.sum_upto_last t.val (by omega) _]
  exact sum_terms loc w1 b1 w2 p n

include hb2 in
/-- and the output block the spatial weight. -/
theorem out_last (t : Fin cfg0.N) (h1 : t.val % 8 = 7) (p : Fin 8) (n : Fin 40000) :
    (Mlp.outsAt0 V c t.val t.isLt).1 (ix2 p n) = weight loc w1 b1 w2 b2 p n := by
  rw [fst_last V c t h1]
  refine (MlpPayload.pay3_apply _ (b2blk V c t) p n).trans ?_
  exact congrArg₂ (fun (a b : EReal) => a + b) (acc_last V c loc w1 b1 w2 hloc hw1 hb1 hw2 t h1 p n)
    ((blk4_apply V c t 0 n (ix2 (0 : Fin 1) n) rfl rfl).trans (hb2 n))

end Entry

/-! ## The array after the region -/

/-- What the last point writes back is its block of the spatial weight. -/
theorem flushed_eq (c : Dev nD) (loc : S8x256.Idx → EReal) (w1 : S256x1024.Idx → EReal) (b1 : S1024.Idx → EReal) (w2 : S1024x40000.Idx → EReal) (b2 : S40000.Idx → EReal)
    (hloc : (V c main_arg1 : S8x256.Idx → EReal) = loc) (hw1 : (V c main_v0 : S256x1024.Idx → EReal) = w1)
    (hb1 : ∀ j : Fin 1024, (V c main_v2 : S1x1024.Idx → EReal) (ix2 (0 : Fin 1) j) = b1 (ix1 j))
    (hw2 : (V c main_v1 : S1024x40000.Idx → EReal) = w2)
    (hb2 : ∀ n : Fin 40000, (V c main_v3 : S1x40000.Idx → EReal) (ix2 (0 : Fin 1) n) = b2 (ix1 n))
    (t : Fin cfg0.N) (hf : (cfg0.win 5).flush t = true) :
    (Mlp.dat0 (F := Ideal) V c).flushed 5 t
      = ((cfg0.win 5).blk t).view.read (Elt Ideal) (fun i : S8x40000.Idx => weight loc w1 b1 w2 b2 (i 0) (i 1)) := by
  have h1 : t.val % 8 = 7 := (flush0_5 t).mp hf
  show (cfg0.win 5).cut (grid0.coords t) ((Mlp.dat0 V c).after 5 t) = _
  rw [Mlp.after0_5]
  funext j
  obtain ⟨p, n, rfl⟩ : ∃ (p : Fin 8) (n : Fin 40000), j = ix2 p n := ⟨j 0, j 1, eq_ix2 j⟩
  show (Mlp.outsAt0 V c t.val t.isLt).1 (ix2 p n)
    = (fun i : S8x40000.Idx => weight loc w1 b1 w2 b2 (i 0) (i 1)) (((cfg0.win 5).blk t).view.emb (ix2 p n))
  rw [emb5 t p n]
  exact out_last V c loc w1 b1 w2 b2 hloc hw1 hb1 hw2 hb2 t h1 p n

/-- After the region the output array holds the spatial weight of the five input arrays. -/
theorem final0 (V : (c : Dev nD) → (b : Ref sig .tc) → Buf (Elt Ideal) ((c : Thread nD τ).loc b)) (c : Dev nD)
    (loc : S8x256.Idx → EReal) (w1 : S256x1024.Idx → EReal) (b1 : S1024.Idx → EReal) (w2 : S1024x40000.Idx → EReal) (b2 : S40000.Idx → EReal)
    (hloc : (V c main_arg1 : S8x256.Idx → EReal) = loc) (hw1 : (V c main_v0 : S256x1024.Idx → EReal) = w1)
    (hb1 : ∀ j : Fin 1024, (V c main_v2 : S1x1024.Idx → EReal) (ix2 (0 : Fin 1) j) = b1 (ix1 j))
    (hw2 : (V c main_v1 : S1024x40000.Idx → EReal) = w2)
    (hb2 : ∀ n : Fin 40000, (V c main_v3 : S1x40000.Idx → EReal) (ix2 (0 : Fin 1) n) = b2 (ix1 n)) :
    (Mlp.dat0 (F := Ideal) V c).arrAt 5 cfg0.N = fun i : S8x40000.Idx => Cert.Spec.weight loc w1 b1 w2 b2 (i 0) (i 1) :=
  (Mlp.dat0 V c).arrAt_eq_of_cover 5 (fun i : S8x40000.Idx => weight loc w1 b1 w2 b2 (i 0) (i 1))
    (fun t hf => flushed_eq V c loc w1 b1 w2 b2 hloc hw1 hb1 hw2 hb2 t hf) cover5

end Cert.KernelIdeal.MlpValue

end
-- ==== Proof.KI.Glue.lean ====
/-
  The host operations around the two kernel regions, read at an entry at the ideal values.

  Before the first region the program converts the two weight matrices to a narrower float format — the identity on
  extended reals — and views the two bias vectors as one-row matrices; between the regions it views the perceptron's
  `[8, 40000]` output as an `[8, 200, 200]` map: entry `(b, h, w)` of the map is entry `(b, 200 · h + w)` of the output.
-/
import proofs.«163258_j32710470926816_1_alg».proof.Proof.Gen.KernelIdeal.Launch
import proofs.«163258_j32710470926816_1_alg».proof.Proof.Spec
import proofs.«163258_j32710470926816_1_alg».proof.Proof.LibRowSpread
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Glue

open Cert.KernelIdeal Cert.KernelIdeal.Gen
open Idealize.ShloMosaic Idealize.ShloMosaic.TcCoe Idealize.ShloMosaic.ValueIdx Idealize.SL.Sem Idealize.ShloMosaic.StableHlo

variable (W : Valuation τ sig (Elt Ideal))

/-- The first weight matrix after its format conversion. -/
theorem v0_eq : (StableHlo.after hostOps0 W (Proc.devRef .tc main_v0) : S256x1024.Idx → EReal)
    = (truncf .bf16 (W (Proc.devRef .tc main_arg2) : FVec Ideal S256x1024 .f32) bitsLt_bf16_f32 : FVec Ideal S256x1024 .bf16) := by
  after_results <;> rfl

/-- The second weight matrix after its format conversion. -/
theorem v1_eq : (StableHlo.after hostOps0 W (Proc.devRef .tc main_v1) : S1024x40000.Idx → EReal)
    = (truncf .bf16 (W (Proc.devRef .tc main_arg4) : FVec Ideal S1024x40000 .f32) bitsLt_bf16_f32 : FVec Ideal S1024x40000 .bf16) := by
  after_results <;> rfl

/-- The first bias as a row. -/
theorem v2_eq : (StableHlo.after hostOps0 W (Proc.devRef .tc main_v2) : S1x1024.Idx → EReal)
    = shapeCast S1x1024 (W (Proc.devRef .tc main_arg3) : S1024.Idx → EReal) shapeCasts_S1024_S1x1024 := by
  after_results <;> rfl

/-- The second bias as a row. -/
theorem v3_eq : (StableHlo.after hostOps0 W (Proc.devRef .tc main_v3) : S1x40000.Idx → EReal)
    = shapeCast S1x40000 (W (Proc.devRef .tc main_arg5) : S40000.Idx → EReal) shapeCasts_S40000_S1x40000 := by
  after_results <;> rfl

/-- The perceptron's output as a map. -/
theorem v5_eq : (StableHlo.after hostOps1 W (Proc.devRef .tc main_v5) : S8x200x200.Idx → EReal)
    = shapeCast S8x200x200 (W (Proc.devRef .tc main_v4) : S8x40000.Idx → EReal) shapeCasts_S8x40000_S8x200x200 := by
  after_results <;> rfl

/-- Entry `(b, h, w)` of the map is entry `(b, 200 · h + w)` of the flat output. -/
theorem map_apply (x : S8x40000.Idx → EReal) (b : Fin 8) (h w : Fin 200) :
    shapeCast S8x200x200 x shapeCasts_S8x40000_S8x200x200 (ix3 b h w) = x (ix2 b (Cert.Spec.flat h w)) := by
  refine shapeCast_apply x _ _ _ ?_
  rw [Shape.rowMajor_val_three, Shape.rowMajor_val_two]
  show b.val * 40000 + (200 * h.val + w.val) = (b.val * 200 + h.val) * 200 + w.val
  omega

end Cert.KernelIdeal.Glue

end
-- ==== Proof.KI.KernelValue.lean ====
/-
  The idealized kernel program's result array is the specification's function `Cert.Spec.G` of its six argument arrays.

  The first region is entered with the localization rows, the two weight matrices (their format conversion is the identity
  on extended reals) and the two biases as rows, and leaves in its output array the perceptron's output
  `weight[b, n]`; the reshape between the regions lays that out as the map `(b, h, w) ↦ weight[b, 200 · h + w]`; the second
  region is entered with the image and that map and leaves `x · (1 + map)` in the result array.
-/
import proofs.«163258_j32710470926816_1_alg».proof.Proof.KI.Run
import proofs.«163258_j32710470926816_1_alg».proof.Proof.KI.EwValue
import proofs.«163258_j32710470926816_1_alg».proof.Proof.KI.MlpValue
import proofs.«163258_j32710470926816_1_alg».proof.Proof.KI.Glue

noncomputable section

namespace Cert.KernelIdeal.KernelValue

open Cert.KernelIdeal Cert.KernelIdeal.Gen Cert.KernelIdeal.Run
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The perceptron's output, as the first region leaves it. -/
theorem weight_eq (c : Dev nD) :
    (W2 m c (Proc.devRef .tc main_v4) : S8x40000.Idx → EReal)
      = fun i => Cert.Spec.weight (m ((c : Thread nD τ).loc main_arg1)) (m ((c : Thread nD τ).loc main_arg2)) (m ((c : Thread nD τ).loc main_arg3))
          (m ((c : Thread nD τ).loc main_arg4)) (m ((c : Thread nD τ).loc main_arg5)) (i 0) (i 1) := by
  refine (W2_arr m c 5).trans (MlpValue.final0 (V1 m) c _ _ _ _ _ ?_ ?_ ?_ ?_ ?_)
  · show StableHlo.after hostOps0 (W0 m c) (Proc.devRef .tc main_arg1) = _
    after_results <;> rfl
  · exact (Glue.v0_eq (W0 m c)).trans rfl
  · intro j
    show (StableHlo.after hostOps0 (W0 m c) (Proc.devRef .tc main_v2) : S1x1024.Idx → EReal) (ix2 (0 : Fin 1) j) = _
    rw [Glue.v2_eq]
    exact Cert.Lib.RowSpread.asRow_apply _ _ 0 j
  · exact (Glue.v1_eq (W0 m c)).trans rfl
  · intro n
    show (StableHlo.after hostOps0 (W0 m c) (Proc.devRef .tc main_v3) : S1x40000.Idx → EReal) (ix2 (0 : Fin 1) n) = _
    rw [Glue.v3_eq]
    exact Cert.Lib.RowSpread.asRow_apply _ _ 0 n

/-- The map the second region is entered with. -/
theorem map_eq (c : Dev nD) (b : Fin 8) (h w : Fin 200) :
    (V3 m c main_v5 : S8x200x200.Idx → EReal) (ix3 b h w)
      = Cert.Spec.weight (m ((c : Thread nD τ).loc main_arg1)) (m ((c : Thread nD τ).loc main_arg2)) (m ((c : Thread nD τ).loc main_arg3))
          (m ((c : Thread nD τ).loc main_arg4)) (m ((c : Thread nD τ).loc main_arg5)) b (Cert.Spec.flat h w) := by
  show (StableHlo.after hostOps1 (W2 m c) (Proc.devRef .tc main_v5) : S8x200x200.Idx → EReal) (ix3 b h w) = _
  rw [Glue.v5_eq, Glue.map_apply, weight_eq]
  rfl

/-- The image the second region is entered with is the argument. -/
theorem image_eq (c : Dev nD) : V3 m c main_arg0 = m ((c : Thread nD τ).loc main_arg0) := by
  show StableHlo.after hostOps1 (W2 m c) (Proc.devRef .tc main_arg0) = _
  refine (show StableHlo.after hostOps1 (W2 m c) (Proc.devRef .tc main_arg0) = W2 m c (Proc.devRef .tc main_arg0) from by after_results <;> rfl).trans ?_
  refine (W2_of_ne m c main_arg0 (by decide)).trans ?_
  show StableHlo.after hostOps0 (W0 m c) (Proc.devRef .tc main_arg0) = _
  after_results <;> rfl

/-- The result array after the run. -/
theorem result_eq (c : Dev nD) :
    (W4 m c (Proc.devRef .tc main_v6) : S8x256x200x200.Idx → EReal)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W4_arr m c 2).trans ((EwValue.final1' (V3 m) c _ _ (image_eq m c) rfl).trans ?_)
  funext i
  obtain ⟨b, ch, h, w, rfl⟩ : ∃ (b : Fin 8) (ch : Fin 256) (h : Fin 200) (w : Fin 200), i = ix4 b ch h w := ⟨i 0, i 1, i 2, i 3, eq_ix4 i⟩
  rw [Cert.Spec.G_apply]
  show @HMul.hMul EReal EReal EReal instHMul (m ((c : Thread nD τ).loc main_arg0) (ix4 b ch h w))
      (@HAdd.hAdd EReal EReal EReal instHAdd Cert.Spec.one (V3 m c main_v5 (ix3 b h w))) = _
  rw [map_eq]

end Cert.KernelIdeal.KernelValue

end
-- ==== Proof.LibBroadcastInDim.lean ====
/-
  A host `broadcast_in_dim` between a vector, a one-row or one-column matrix and a matrix, read at an entry (general
  in the sizes): a vector laid along the columns of a one-row matrix or along the rows of a one-column matrix, and a
  one-row or one-column matrix spread over all rows or all columns. Each reads the operand at the coordinate that
  survives.
-/
import Idealize.ShloMosaic.Lib.Pipeline.Value
import Idealize.ShloMosaic.Lib.ValueIdx

namespace Idealize.ShloMosaic.ValueLayout

open Idealize.ShloMosaic.ValueIdx

variable {α : Type}

/-- A vector `[n]` laid as the one row of `[1, n]` reads, at `(u, i)`, the vector at `i`. -/
theorem bcast_n_1n_apply {n : ℕ} (h : (⟨1, ![n]⟩ : Shape).BroadcastsInDim ⟨2, ![1, n]⟩ (![1] : Fin 1 → Fin 2))
    (x : (⟨1, ![n]⟩ : Shape).Idx → α) (u : Fin 1) (i : Fin n) :
    broadcastInDim ⟨2, ![1, n]⟩ ![1] h x (ix2 u i) = x (ix1 i) :=
  broadcastInDim_apply _ h x _ _ (fun a => by
    match a with
    | ⟨0, _⟩ =>
      show i.val = if n = 1 then 0 else i.val
      split
      · have := i.isLt; omega
      · rfl)

/-- A vector `[n]` laid as the one column of `[n, 1]` reads, at `(i, u)`, the vector at `i`. -/
theorem bcast_n_n1_apply {n : ℕ} (h : (⟨1, ![n]⟩ : Shape).BroadcastsInDim ⟨2, ![n, 1]⟩ (![0] : Fin 1 → Fin 2))
    (x : (⟨1, ![n]⟩ : Shape).Idx → α) (i : Fin n) (u : Fin 1) :
    broadcastInDim ⟨2, ![n, 1]⟩ ![0] h x (ix2 i u) = x (ix1 i) :=
  broadcastInDim_apply _ h x _ _ (fun a => by
    match a with
    | ⟨0, _⟩ =>
      show i.val = if n = 1 then 0 else i.val
      split
      · have := i.isLt; omega
      · rfl)

/-- A one-row matrix `[1, n]` spread over `r` rows reads, at `(p, i)`, the row at `i`. -/
theorem bcast_1n_rn_apply {r n : ℕ} (h : (⟨2, ![1, n]⟩ : Shape).BroadcastsInDim ⟨2, ![r, n]⟩ (![0, 1] : Fin 2 → Fin 2))
    (x : (⟨2, ![1, n]⟩ : Shape).Idx → α) (p : Fin r) (i : Fin n) :
    broadcastInDim ⟨2, ![r, n]⟩ ![0, 1] h x (ix2 p i) = x (ix2 (0 : Fin 1) i) :=
  broadcastInDim_apply _ h x _ _ (fun a => by
    match a with
    | ⟨0, _⟩ => show (0 : ℕ) = if (1 : ℕ) = 1 then 0 else p.val; rw [if_pos rfl]
    | ⟨1, _⟩ =>
      show i.val = if n = 1 then 0 else i.val
      split
      · have := i.isLt; omega
      · rfl)

/-- A one-column matrix `[r, 1]` spread over `n` columns reads, at `(p, i)`, the column at `p`. -/
theorem bcast_r1_rn_apply {r n : ℕ} (h : (⟨2, ![r, 1]⟩ : Shape).BroadcastsInDim ⟨2, ![r, n]⟩ (![0, 1] : Fin 2 → Fin 2))
    (x : (⟨2, ![r, 1]⟩ : Shape).Idx → α) (p : Fin r) (i : Fin n) :
    broadcastInDim ⟨2, ![r, n]⟩ ![0, 1] h x (ix2 p i) = x (ix2 p (0 : Fin 1)) :=
  broadcastInDim_apply _ h x _ _ (fun a => by
    match a with
    | ⟨0, _⟩ =>
      show p.val = if r = 1 then 0 else p.val
      split
      · have := p.isLt; omega
      · rfl
    | ⟨1, _⟩ => show (0 : ℕ) = if (1 : ℕ) = 1 then 0 else i.val; rw [if_pos rfl])

end Idealize.ShloMosaic.ValueLayout
-- ==== Proof.RefValue.lean ====
/-
  The reference's run read at an entry: its result array is the specification's function `Cert.Spec.G` of its
  six argument arrays.

  The reference is a chain of pointwise operations, two matrix products, broadcasts and one reshape. Read at the
  entry `(b, c, h, w)`, outermost operation first: the product `x · m` reads the spread map `m` at `(b, 0, h, w)`,
  which is `1 + ` the map at `(b, h, w)`; the reshape `[8, 40000] → [8, 200, 200]` reads the flat row at
  `200 · h + w` (row-major: `((b · 200 + h) · 200 + w) = b · 40000 + (200 · h + w)`); the flat row is the second
  matrix product plus its bias, over the hidden layer; the hidden layer is the leaky rectifier of the first matrix
  product plus its bias. Each stage is one lemma at explicit coordinates.
-/
import proofs.«163258_j32710470926816_1_alg».proof.Proof.Gen.ReferenceIdeal.Run
import proofs.«163258_j32710470926816_1_alg».proof.Proof.Gen.ReferenceIdeal.Read
import proofs.«163258_j32710470926816_1_alg».proof.Proof.Spec
import proofs.«163258_j32710470926816_1_alg».proof.Proof.LibPlainDot
import proofs.«163258_j32710470926816_1_alg».proof.Proof.LibBroadcastInDim

noncomputable section

namespace Cert.ReferenceIdeal.RefValue

open Cert.ReferenceIdeal Cert.ReferenceIdeal.Gen Cert.ReferenceIdeal.Read Idealize.ShloMosaic Idealize.ShloMosaic.ValueIdx
open scoped BigOperators

/-! ### The index maps of the stages, at explicit coordinates -/

/-- First product, left operand: row `p` of the result reads row `p`, column `k`. -/
theorem lidx_v0 (p : Fin 8) (j : Fin 1024) (k : Fin 256) : lidx_main_v0 (ix2 p j) k = ix2 p k := by
  funext a
  match a with
  | ⟨0, _⟩ => rfl
  | ⟨1, _⟩ => rfl

/-- First product, right operand: column `j` of the result reads row `k`, column `j`. -/
theorem ridx_v0 (p : Fin 8) (j : Fin 1024) (k : Fin 256) : ridx_main_v0 (ix2 p j) k = ix2 k j := by
  funext a
  match a with
  | ⟨0, _⟩ => rfl
  | ⟨1, _⟩ => rfl

/-- The first bias, laid as a row and spread over the eight rows, is read at its own coordinate. -/
theorem idx_v1_v2 (p : Fin 8) (j : Fin 1024) : idx_main_v1 (idx_main_v2 (ix2 p j)) = ix1 j := by
  funext a
  match a with
  | ⟨0, _⟩ => rfl

/-- Second product, left operand. -/
theorem lidx_v9 (p : Fin 8) (n : Fin 40000) (k : Fin 1024) : lidx_main_v9 (ix2 p n) k = ix2 p k := by
  funext a
  match a with
  | ⟨0, _⟩ => rfl
  | ⟨1, _⟩ => rfl

/-- Second product, right operand. -/
theorem ridx_v9 (p : Fin 8) (n : Fin 40000) (k : Fin 1024) : ridx_main_v9 (ix2 p n) k = ix2 k n := by
  funext a
  match a with
  | ⟨0, _⟩ => rfl
  | ⟨1, _⟩ => rfl

/-- The second bias, laid as a row and spread over the eight rows, is read at its own coordinate. -/
theorem idx_v10_v11 (p : Fin 8) (n : Fin 40000) : idx_main_v10 (idx_main_v11 (ix2 p n)) = ix1 n := by
  funext a
  match a with
  | ⟨0, _⟩ => rfl

/-- The reshape: position `(b, h, w)` of the `[8, 200, 200]` array is unit `200 · h + w` of row `b`. -/
theorem idx_v13 (b : Fin 8) (h w : Fin 200) : idx_main_v13 (ix3 b h w) = ix2 b (Cert.Spec.flat h w) := by
  have hb := b.isLt
  have hh := h.isLt
  have hw := w.isLt
  funext a
  refine Fin.ext ?_
  match a with
  | ⟨0, _⟩ =>
    show ((b.val * 200 + h.val) * 200 + w.val) / 40000 = b.val
    omega
  | ⟨1, _⟩ =>
    show ((b.val * 200 + h.val) * 200 + w.val) % 40000 = 200 * h.val + w.val
    omega

/-- The two rank-4 broadcasts: entry `(b, c, h, w)` reads the map at `(b, h, w)`, whatever the channel `c`. -/
theorem idx_v14_v17 (b : Fin 8) (c : Fin 256) (h w : Fin 200) :
    idx_main_v14 (idx_main_v17 (ix4 b c h w)) = ix3 b h w := by
  funext a
  match a with
  | ⟨0, _⟩ => rfl
  | ⟨1, _⟩ => rfl
  | ⟨2, _⟩ => rfl

/-! ### The stages -/

/-- The pre-activation of hidden unit `j` of batch row `p`: the first matrix product plus its bias. -/
theorem pre_apply (loc : FVec Ideal S8x256 .f32) (w1 : FVec Ideal S256x1024 .f32) (b1 : FVec Ideal S1024 .f32)
    (p : Fin 8) (j : Fin 1024) :
    val_main_v3 (F := Ideal) loc w1 b1 (ix2 p j)
      = (∑ k : Fin 256, loc (ix2 p k) * w1 (ix2 k j)) + b1 (ix1 j) := by
  rw [val_main_v3_apply, val_main_v0_apply, val_main_v2_apply, val_main_v1_apply, idx_v1_v2]
  show (∑ k : Fin 256, loc (lidx_main_v0 (ix2 p j) k) * w1 (ridx_main_v0 (ix2 p j) k)) + b1 (ix1 j) = _
  refine congrArg (· + b1 (ix1 j)) (Finset.sum_congr rfl fun k _ => ?_)
  rw [lidx_v0, ridx_v0]

/-- The hidden layer: the leaky rectifier of the pre-activation, with the compare against the zero word, the
    select, and the product by the word of `0.1` exactly as the specification spells them. -/
theorem hidden_apply (loc : FVec Ideal S8x256 .f32) (w1 : FVec Ideal S256x1024 .f32) (b1 : FVec Ideal S1024 .f32)
    (p : Fin 8) (j : Fin 1024) :
    val_main_v8 (F := Ideal) loc w1 b1 (ix2 p j) = Cert.Spec.hidden loc w1 b1 p j := by
  rw [val_main_v8_apply, val_main_v5_apply, val_main_v7_apply, val_main_v4_apply, val_main_v6_apply,
    val_main_cst_apply, val_main_cst_0_apply, pre_apply]
  rfl

/-- The output layer at `(p, n)`: the second matrix product over the hidden layer plus its bias. -/
theorem weight_apply (loc : FVec Ideal S8x256 .f32) (w1 : FVec Ideal S256x1024 .f32) (b1 : FVec Ideal S1024 .f32)
    (w2 : FVec Ideal S1024x40000 .f32) (b2 : FVec Ideal S40000 .f32) (p : Fin 8) (n : Fin 40000) :
    val_main_v12 (F := Ideal) loc w1 b1 w2 b2 (ix2 p n) = Cert.Spec.weight loc w1 b1 w2 b2 p n := by
  rw [val_main_v12_apply, val_main_v9_apply, val_main_v11_apply, val_main_v10_apply, idx_v10_v11]
  show (∑ k : Fin 1024, val_main_v8 (F := Ideal) loc w1 b1 (lidx_main_v9 (ix2 p n) k) * w2 (ridx_main_v9 (ix2 p n) k))
      + b2 (ix1 n) = _
  refine congrArg (· + b2 (ix1 n)) (Finset.sum_congr rfl fun k _ => ?_)
  rw [lidx_v9, ridx_v9, hidden_apply]

/-- The spatial map at `(b, h, w)`: the output layer at unit `200 · h + w` of row `b`. -/
theorem map_apply (loc : FVec Ideal S8x256 .f32) (w1 : FVec Ideal S256x1024 .f32) (b1 : FVec Ideal S1024 .f32)
    (w2 : FVec Ideal S1024x40000 .f32) (b2 : FVec Ideal S40000 .f32) (b : Fin 8) (h w : Fin 200) :
    val_main_v13 (F := Ideal) loc w1 b1 w2 b2 (ix3 b h w)
      = Cert.Spec.weight loc w1 b1 w2 b2 b (Cert.Spec.flat h w) := by
  rw [val_main_v13_apply, idx_v13, weight_apply]

/-- The reference's result, stage by stage, is the specification's function. -/
theorem val_eq_G (x : FVec Ideal S8x256x200x200 .f32) (loc : FVec Ideal S8x256 .f32)
    (w1 : FVec Ideal S256x1024 .f32) (b1 : FVec Ideal S1024 .f32) (w2 : FVec Ideal S1024x40000 .f32)
    (b2 : FVec Ideal S40000 .f32) :
    val_main_v18 (F := Ideal) x loc w1 b1 w2 b2 = Cert.Spec.G x loc w1 b1 w2 b2 := by
  funext i
  obtain ⟨b, c, h, w, rfl⟩ : ∃ (b : Fin 8) (c : Fin 256) (h : Fin 200) (w : Fin 200), i = ix4 b c h w :=
    ⟨i 0, i 1, i 2, i 3, eq_ix4 i⟩
  rw [val_main_v18_apply, val_main_v17_apply, val_main_v16_apply, val_main_v15_apply, val_main_cst_1_apply,
    val_main_v14_apply, idx_v14_v17, map_apply, Cert.Spec.G_apply]
  rfl

/-- The result term of the reference's run, with the six argument arrays as variables, is the specification's
    function of them. -/
theorem ref_eq_G (x : FVec Ideal S8x256x200x200 .f32) (loc : FVec Ideal S8x256 .f32) (w1 : FVec Ideal S256x1024 .f32) (b1 : FVec Ideal S1024 .f32) (w2 : FVec Ideal S1024x40000 .f32) (b2 : FVec Ideal S40000 .f32) :
    (mulf x (broadcastInDim S8x256x200x200 ![0, 1, 2, 3] bcast_S8x1x200x200_S8x256x200x200_0_1_2_3 (addf (broadcastInDim S8x1x200x200 ![] bcast_S_S8x1x200x200 (constant S_ .f32 0x3F800000#32)) (broadcastInDim S8x1x200x200 ![0, 2, 3] bcast_S8x200x200_S8x1x200x200_0_2_3 (shapeCast _ (addf (Host.dotGeneral dot_S8x1024_S1024x40000_S8x40000_1_0_0_1_n_n none (select (cmpf .oge (addf (Host.dotGeneral dot_S8x256_S256x1024_S8x1024_1_0_0_1_n_n none loc w1) (broadcastInDim S8x1024 ![0, 1] bcast_S1x1024_S8x1024_0_1 (broadcastInDim S1x1024 ![1] bcast_S1024_S1x1024_1 b1))) (broadcastInDim S8x1024 ![] bcast_S_S8x1024 (constant S_ .f32 0x00000000#32))) (addf (Host.dotGeneral dot_S8x256_S256x1024_S8x1024_1_0_0_1_n_n none loc w1) (broadcastInDim S8x1024 ![0, 1] bcast_S1x1024_S8x1024_0_1 (broadcastInDim S1x1024 ![1] bcast_S1024_S1x1024_1 b1))) (mulf (broadcastInDim S8x1024 ![] bcast_S_S8x1024 (constant S_ .f32 0x3DCCCCCD#32)) (addf (Host.dotGeneral dot_S8x256_S256x1024_S8x1024_1_0_0_1_n_n none loc w1) (broadcastInDim S8x1024 ![0, 1] bcast_S1x1024_S8x1024_0_1 (broadcastInDim S1x1024 ![1] bcast_S1024_S1x1024_1 b1))))) w2) (broadcastInDim S8x40000 ![0, 1] bcast_S1x40000_S8x40000_0_1 (broadcastInDim S1x40000 ![1] bcast_S40000_S1x40000_1 b2))) shapeCasts_S8x40000_S8x200x200)))) : FVec Ideal S8x256x200x200 .f32)
      = Cert.Spec.G x loc w1 b1 w2 b2 :=
  (val_main_v18_eq (F := Ideal) x loc w1 b1 w2 b2).trans (val_eq_G x loc w1 b1 w2 b2)

end Cert.ReferenceIdeal.RefValue

end
-- ==== Proof.lean ====
/-
  The certificate's claim: the kernel program and its idealization run to the end without a fault and leave their
  argument arrays unchanged; so does the reference; and the idealized kernel and the reference, from memories agreeing on
  the arguments, end with the same result array.

  The kernel program is two kernel regions among host operations. Its frame is the launch of the two regions in
  order — a two-layer perceptron tiled over its hidden units with an accumulator kept between grid points, then an
  elementwise scaling of the image — each region's body run on the staging buffers the pipeline hands it
  (`Proof/KI/Run.lean`; the same text for the word-level program, `Proof/K/Run.lean`). The reference's frame is its run.
  No operation was rewritten when the kernel was idealized, so there is nothing to preserve. For the value claim both
  result arrays are the one function `Cert.Spec.G` of the six arguments: the reference's by reading its operations at an
  entry (`Proof/RefValue.lean`); the kernel's because the perceptron's 1024-term contraction, taken in 8 blocks of 128
  added one after the other onto zero, is the whole sum (`Proof/KI/MlpValue.lean`), and every output block of the scaling
  is the restriction of one whole-array function (`Proof/KI/EwValue.lean`, `Proof/KI/KernelValue.lean`).
-/
import proofs.«163258_j32710470926816_1_alg».proof.Defs
import proofs.«163258_j32710470926816_1_alg».proof.Proof.Gen.Kernel
import proofs.«163258_j32710470926816_1_alg».proof.Proof.Gen.KernelIdeal
import proofs.«163258_j32710470926816_1_alg».proof.Proof.Gen.ReferenceIdeal
import proofs.«163258_j32710470926816_1_alg».proof.Proof.Gen.Pre_finite_inputs
import proofs.«163258_j32710470926816_1_alg».proof.Proof.Gen.ReferenceIdeal.Run
import proofs.«163258_j32710470926816_1_alg».proof.Proof.K.Run
import proofs.«163258_j32710470926816_1_alg».proof.Proof.KI.Run
import proofs.«163258_j32710470926816_1_alg».proof.Proof.KI.KernelValue
import proofs.«163258_j32710470926816_1_alg».proof.Proof.RefValue

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Run.frame m ρ

theorem frame_ki : Cert.frame_KernelIdeal (hKernelIdeal := Cert.KernelIdeal.Gen.facts) (hPre_finite_inputs := Cert.Pre_finite_inputs.Gen.facts) :=
  fun m ρ _ => Cert.KernelIdeal.Run.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both result arrays are `Cert.Spec.G` of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.result_eq m c), (h c).2⟩)
      (Cert.KernelIdeal.Run.run_value (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact Cert.ReferenceIdeal.RefValue.ref_eq_G _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
